-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_arg11 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x600000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S2000x128 : Shape := ⟨2, ![2000, 128]⟩
abbrev S512x128 : Shape := ⟨2, ![512, 128]⟩
abbrev S2000x1 : Shape := ⟨2, ![2000, 1]⟩
abbrev S2000x512 : Shape := ⟨2, ![2000, 512]⟩

abbrev nBuf : Space → Nat
  | .hbm => 81
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000x1, .f32⟩
  | .hbm, ⟨18, _⟩ => ⟨S_, .f32⟩
  | .hbm, ⟨19, _⟩ => ⟨S100000x1, .f32⟩
  | .hbm, ⟨20, _⟩ => ⟨S600000x1, .i32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S100000x128, .f32⟩
  | .hbm, ⟨39, _⟩ => ⟨S600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S_, .f32⟩
  | .hbm, ⟨72, _⟩ => ⟨S100000x128, .f32⟩
  | .hbm, ⟨73, _⟩ => ⟨S600000x1, .i32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x1, .i32⟩
  | .hbm, ⟨80, _⟩ => ⟨S512x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .i32⟩
  | .local _ .vmem, ⟨30, _⟩ => ⟨S2000x1, .i32⟩
  | .local _ .vmem, ⟨31, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S100000x1 : S_.BroadcastsInDim S100000x1 (![] : Fin 0 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S100000_S100000x1 : S100000.ShapeCasts S100000x1
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S512x128_S512x128 : S512x128.ShapeCasts S512x128
  scatter_S100000x1_S600000x1_S600000x1_1_0_0_1_wf : ScatterDims.WF S100000x1 S600000x1 S600000x1 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x512_S2000x128_S512x128_0_0_1_1_n_n_wf : DotDims.WF S2000x512 S2000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .i32 = 32 ∨ (Rect.block (s := S100000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .f32 = 32 ∨ (Rect.block (s := S512x128) S512x128.size (cc3_transform_2 i) (hinb3_2 i)).WholeWords (EltTy.packing .f32)

variable [Facts₀]

def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S512x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S512x128 : Shape := ⟨2, ![512, 128]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000x1, .f32⟩
  | .hbm, ⟨31, _⟩ => ⟨S_, .f32⟩
  | .hbm, ⟨32, _⟩ => ⟨S100000x1, .f32⟩
  | .hbm, ⟨33, _⟩ => ⟨S600000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S_, .f32⟩
  | .hbm, ⟨63, _⟩ => ⟨S600000x1, .f32⟩
  | .hbm, ⟨64, _⟩ => ⟨S_, .f32⟩
  | .hbm, ⟨65, _⟩ => ⟨S100000x1, .f32⟩
  | .hbm, ⟨66, _⟩ => ⟨S600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S600000x128, .f32⟩
  | .hbm, ⟨91, _⟩ => ⟨S_, .f32⟩
  | .hbm, ⟨92, _⟩ => ⟨S100000x128, .f32⟩
  | .hbm, ⟨93, _⟩ => ⟨S600000x1, .i32⟩
  | .hbm, ⟨94, _⟩ => ⟨S100000x128, .f32⟩
  | .hbm, ⟨95, _⟩ => ⟨S_, .f32⟩
  | .hbm, ⟨96, _⟩ => ⟨S600000x1, .f32⟩
  | .hbm, ⟨97, _⟩ => ⟨S_, .f32⟩
  | .hbm, ⟨98, _⟩ => ⟨S100000x1, .f32⟩
  | .hbm, ⟨99, _⟩ => ⟨S600000x1, .i32⟩
  | .hbm, ⟨100, _⟩ => ⟨S100000x1, .f32⟩
  | .hbm, ⟨101, _⟩ => ⟨S_, .f32⟩
  | .hbm, ⟨102, _⟩ => ⟨S100000x1, .f32⟩
  | .hbm, ⟨103, _⟩ => ⟨S100000x1, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S512x128, .f32⟩
  | .hbm, ⟨117, _⟩ => ⟨S100000x1, .i32⟩
  | .hbm, ⟨118, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call2_cst : Ref sig .tc := ⟨.hbm, 112, rfl⟩
abbrev main_call2_v0 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.KHost.lean ====
/-
  WHAT THE HOST OPERATIONS BETWEEN THE REGIONS HAND TO EACH REGION.

  From the edge list `ei` (row 0 the source node of each of the 600000 edges, row 1 its target) the program computes,
  once, a column of source numbers with negative numbers wrapped by 100000 (`srcCol`), a column of target numbers
  (`dstCol`) and, per node, the reciprocal `1 / max (deg, 1)` of its in-degree (`invCol`: the in-degree is the
  scatter-add of ones at the targets). Before each dense region it gathers the current features' rows at the
  sources, scatter-adds them at the targets (`aggK`) and multiplies by the reciprocal broadcast along the features
  (`meanK`). The bias is handed over as a one-row array, the graph numbers as a one-column array.
-/
import proofs.«429673_j39367670235545_1_alg».proof.Proof.Gen.KernelIdeal.Frame
import Idealize.ShloMosaic.Lib.StableHlo.Run
import Idealize.ShloMosaic.PureOps.Ideal

set_option maxRecDepth 16384

noncomputable section

namespace Cert.Bridge.KHost

open Cert.KernelIdeal Cert.KernelIdeal.Gen
open Idealize.ShloMosaic Idealize.ShloMosaic.TcCoe Idealize.SL.Sem Idealize.ShloMosaic.StableHlo

/-! ## The pieces, as functions of the arrays -/

/-- Row 0 of the edge list: each edge's source node. -/
def row0 (ei : IVec S2x600000 32) : IVec S600000 32 :=
  shapeCast S600000 (extractStridedSlice S1x600000 ![0, 0] ei slices_S2x600000_S1x600000_0_0) shapeCasts_S1x600000_S600000

/-- Row 1 of the edge list: each edge's target node. -/
def row1 (ei : IVec S2x600000 32) : IVec S600000 32 :=
  shapeCast S600000 (extractStridedSlice S1x600000 ![1, 0] ei slices_S2x600000_S1x600000_1_0) shapeCasts_S1x600000_S600000

/-- The source numbers as a column, a negative number wrapped by 100000. -/
def srcColOf (r0 : IVec S600000 32) : IVec S600000x1 32 :=
  broadcastInDim S600000x1 ![0] bcast_S600000_S600000x1_0
    (select (cmpi .slt r0 (broadcastInDim S600000 ![] bcast_S_S600000 (constantI S_ 32 0#32)))
      (addi r0 (broadcastInDim S600000 ![] bcast_S_S600000 (constantI S_ 32 100000#32))) r0)

/-- The target numbers as a column. -/
def dstColOf (r1 : IVec S600000 32) : IVec S600000x1 32 :=
  broadcastInDim S600000x1 ![0] bcast_S600000_S600000x1_0 r1

/-- Per node, `1 / max (in-degree, 1)`, as a column. -/
def invCol (ei : IVec S2x600000 32) : FVec Ideal S100000x1 .f32 :=
  Host.divf (broadcastInDim S100000x1 ![] bcast_S_S100000x1 (constant S_ .f32 0x3F800000#32))
    (maximumf
      (Host.scatterAdd scatter_S100000x1_S600000x1_S600000x1_1_0_0_1
        (broadcastInDim S100000x1 ![] bcast_S_S100000x1 (constant S_ .f32 0x00000000#32))
        (dstColOf (row1 ei))
        (broadcastInDim S600000x1 ![] bcast_S_S600000x1 (constant S_ .f32 0x3F800000#32)))
      (broadcastInDim S100000x1 ![] bcast_S_S100000x1 (constant S_ .f32 0x3F800000#32)))

/-- The features of each node's in-neighbours, summed: gather at the sources, scatter-add at the targets. -/
def aggOf (r0 r1 : IVec S600000 32) (h : FVec Ideal S100000x128 .f32) : FVec Ideal S100000x128 .f32 :=
  Host.scatterAdd scatter_S100000x128_S600000x1_S600000x128_1_0_0_1
    (broadcastInDim S100000x128 ![] bcast_S_S100000x128 (constant S_ .f32 0x00000000#32))
    (dstColOf r1)
    (Host.gather gather_S100000x128_S600000x1_S600000x128_1_0_n_n_0_1_1128 h (srcColOf r0))

/-- The mean over the in-neighbours: the sum times the reciprocal, broadcast along the features. -/
def meanOf (r0 r1 : IVec S600000 32) (inv : FVec Ideal S100000x1 .f32) (h : FVec Ideal S100000x128 .f32) :
    FVec Ideal S100000x128 .f32 :=
  mulf (aggOf r0 r1 h) (broadcastInDim S100000x128 ![0, 1] bcast_S100000x1_S100000x128_0_1 inv)

/-- The bias as a one-row array. -/
def biasRow (bl : FVec Ideal S128 .f32) : FVec Ideal S1x128 .f32 := shapeCast S1x128 bl shapeCasts_S128_S1x128

/-- The graph numbers as a one-column array. -/
def graphCol (batch : IVec S100000 32) : IVec S100000x1 32 := shapeCast S100000x1 batch shapeCasts_S100000_S100000x1

variable (m : (ℓ : Loc nD τ sig) → Buf (Elt Ideal) ℓ) (ρ : Dev nD → PrngReg)

/-! ## Region 0's entry: the first stretch, from the launch memory -/

theorem W1_v1 (c : Dev nD) : W1 m ρ c (Proc.devRef .tc main_v1) = row0 (m ((c : Thread nD τ).loc main_arg1)) := by
  show StableHlo.after hostOps0 (W0 m ρ c) (Proc.devRef .tc main_v1) = _
  after_results
  rfl

theorem W1_v3 (c : Dev nD) : W1 m ρ c (Proc.devRef .tc main_v3) = row1 (m ((c : Thread nD τ).loc main_arg1)) := by
  show StableHlo.after hostOps0 (W0 m ρ c) (Proc.devRef .tc main_v3) = _
  after_results
  rfl

theorem W1_v11 (c : Dev nD) : W1 m ρ c (Proc.devRef .tc main_v11) = invCol (m ((c : Thread nD τ).loc main_arg1)) := by
  show StableHlo.after hostOps0 (W0 m ρ c) (Proc.devRef .tc main_v11) = _
  after_results
  rfl

set_option maxHeartbeats 4000000 in
theorem V1_v23 (c : Dev nD) : V1 m ρ c main_v23 =
    meanOf (row0 (m ((c : Thread nD τ).loc main_arg1))) (row1 (m ((c : Thread nD τ).loc main_arg1)))
      (invCol (m ((c : Thread nD τ).loc main_arg1))) (m ((c : Thread nD τ).loc main_arg0)) := by
  show StableHlo.after hostOps0 (W0 m ρ c) (Proc.devRef .tc main_v23) = _
  after_results_simp
  rfl

theorem V1_v24 (c : Dev nD) : V1 m ρ c main_v24 = biasRow (m ((c : Thread nD τ).loc main_arg4)) := by
  show StableHlo.after hostOps0 (W0 m ρ c) (Proc.devRef .tc main_v24) = _
  after_results
  rfl

theorem V1_arg0 (c : Dev nD) : V1 m ρ c main_arg0 = m ((c : Thread nD τ).loc main_arg0) := by
  show StableHlo.after hostOps0 (W0 m ρ c) (Proc.devRef .tc main_arg0) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg5 (c : Dev nD) : V1 m ρ c main_arg5 = m ((c : Thread nD τ).loc main_arg5) := by
  show StableHlo.after hostOps0 (W0 m ρ c) (Proc.devRef .tc main_arg5) = _
  after_results

/-! ## Buffers the later stretches read, carried unchanged

A buffer that is none of a region's arrays is what it was when the region was entered, and a stretch leaves a buffer
it does not write as it found it. The three index vectors (sources, targets, reciprocal degrees) and the later
layers' parameters pass so from the first stretch to the stretch that reads them. -/

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

theorem W1_arg7 (c : Dev nD) : W1 m ρ c (Proc.devRef .tc main_arg7) = m ((c : Thread nD τ).loc main_arg7) := by
  show StableHlo.after hostOps0 (W0 m ρ c) (Proc.devRef .tc main_arg7) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

theorem W1_arg9 (c : Dev nD) : W1 m ρ c (Proc.devRef .tc main_arg9) = m ((c : Thread nD τ).loc main_arg9) := by
  show StableHlo.after hostOps0 (W0 m ρ c) (Proc.devRef .tc main_arg9) = _
  after_results

theorem W1_arg10 (c : Dev nD) : W1 m ρ c (Proc.devRef .tc main_arg10) = m ((c : Thread nD τ).loc main_arg10) := by
  show StableHlo.after hostOps0 (W0 m ρ c) (Proc.devRef .tc main_arg10) = _
  after_results

theorem W1_arg11 (c : Dev nD) : W1 m ρ c (Proc.devRef .tc main_arg11) = m ((c : Thread nD τ).loc main_arg11) := by
  show StableHlo.after hostOps0 (W0 m ρ c) (Proc.devRef .tc main_arg11) = _
  after_results

theorem W2_v1 (c : Dev nD) : W2 m ρ c (Proc.devRef .tc main_v1) = row0 (m ((c : Thread nD τ).loc main_arg1)) :=
  (W2_of_ne m ρ c main_v1 (by decide)).trans (W1_v1 m ρ c)

theorem W2_v3 (c : Dev nD) : W2 m ρ c (Proc.devRef .tc main_v3) = row1 (m ((c : Thread nD τ).loc main_arg1)) :=
  (W2_of_ne m ρ c main_v3 (by decide)).trans (W1_v3 m ρ c)

theorem W2_v11 (c : Dev nD) : W2 m ρ c (Proc.devRef .tc main_v11) = invCol (m ((c : Thread nD τ).loc main_arg1)) :=
  (W2_of_ne m ρ c main_v11 (by decide)).trans (W1_v11 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W3_v1 (c : Dev nD) : W3 m ρ c (Proc.devRef .tc main_v1) = row0 (m ((c : Thread nD τ).loc main_arg1)) := by
  show StableHlo.after hostOps1 (W2 m ρ c) (Proc.devRef .tc main_v1) = _
  after_results
  exact W2_v1 m ρ c

theorem W4_v1 (c : Dev nD) : W4 m ρ c (Proc.devRef .tc main_v1) = row0 (m ((c : Thread nD τ).loc main_arg1)) :=
  (W4_of_ne m ρ c main_v1 (by decide)).trans (W3_v1 m ρ c)

theorem W3_v3 (c : Dev nD) : W3 m ρ c (Proc.devRef .tc main_v3) = row1 (m ((c : Thread nD τ).loc main_arg1)) := by
  show StableHlo.after hostOps1 (W2 m ρ c) (Proc.devRef .tc main_v3) = _
  after_results
  exact W2_v3 m ρ c

theorem W4_v3 (c : Dev nD) : W4 m ρ c (Proc.devRef .tc main_v3) = row1 (m ((c : Thread nD τ).loc main_arg1)) :=
  (W4_of_ne m ρ c main_v3 (by decide)).trans (W3_v3 m ρ c)

theorem W3_v11 (c : Dev nD) : W3 m ρ c (Proc.devRef .tc main_v11) = invCol (m ((c : Thread nD τ).loc main_arg1)) := by
  show StableHlo.after hostOps1 (W2 m ρ c) (Proc.devRef .tc main_v11) = _
  after_results
  exact W2_v11 m ρ c

theorem W4_v11 (c : Dev nD) : W4 m ρ c (Proc.devRef .tc main_v11) = invCol (m ((c : Thread nD τ).loc main_arg1)) :=
  (W4_of_ne m ρ c main_v11 (by decide)).trans (W3_v11 m ρ c)

theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c

theorem W4_arg2 (c : Dev nD) : W4 m ρ c (Proc.devRef .tc main_arg2) = m ((c : Thread nD τ).loc main_arg2) :=
  (W4_of_ne m ρ c main_arg2 (by decide)).trans (W3_arg2 m ρ c)

theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c

theorem W4_arg9 (c : Dev nD) : W4 m ρ c (Proc.devRef .tc main_arg9) = m ((c : Thread nD τ).loc main_arg9) :=
  (W4_of_ne m ρ c main_arg9 (by decide)).trans (W3_arg9 m ρ c)

theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c

theorem W4_arg10 (c : Dev nD) : W4 m ρ c (Proc.devRef .tc main_arg10) = m ((c : Thread nD τ).loc main_arg10) :=
  (W4_of_ne m ρ c main_arg10 (by decide)).trans (W3_arg10 m ρ c)

theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c

theorem W4_arg11 (c : Dev nD) : W4 m ρ c (Proc.devRef .tc main_arg11) = m ((c : Thread nD τ).loc main_arg11) :=
  (W4_of_ne m ρ c main_arg11 (by decide)).trans (W3_arg11 m ρ c)

theorem W5_arg2 (c : Dev nD) : W5 m ρ c (Proc.devRef .tc main_arg2) = m ((c : Thread nD τ).loc main_arg2) := by
  show StableHlo.after hostOps2 (W4 m ρ c) (Proc.devRef .tc main_arg2) = _
  after_results
  exact W4_arg2 m ρ c

theorem W6_arg2 (c : Dev nD) : W6 m ρ c (Proc.devRef .tc main_arg2) = m ((c : Thread nD τ).loc main_arg2) :=
  (W6_of_ne m ρ c main_arg2 (by decide)).trans (W5_arg2 m ρ c)

/-! ## Region 1's entry -/

/-- The features region 1 reads: what the region before left in its result array. -/
abbrev feat1 (c : Dev nD) : FVec Ideal S100000x128 .f32 := W2 m ρ c (Proc.devRef .tc main_v25)

theorem V3_v25 (c : Dev nD) : V3 m ρ c main_v25 = feat1 m ρ c := by
  show StableHlo.after hostOps1 (W2 m ρ c) (Proc.devRef .tc main_v25) = _
  after_results

set_option maxHeartbeats 4000000 in
theorem V3_v37 (c : Dev nD) : V3 m ρ c main_v37 =
    meanOf (row0 (m ((c : Thread nD τ).loc main_arg1))) (row1 (m ((c : Thread nD τ).loc main_arg1))) (invCol (m ((c : Thread nD τ).loc main_arg1))) (feat1 m ρ c) := by
  show StableHlo.after hostOps1 (W2 m ρ c) (Proc.devRef .tc main_v37) = _
  after_results_simp
  rw [W2_v1 m ρ c, W2_v3 m ρ c, W2_v11 m ρ c]
  rfl

theorem V3_v38 (c : Dev nD) : V3 m ρ c main_v38 = biasRow (m ((c : Thread nD τ).loc main_arg7)) := by
  have e : V3 m ρ c main_v38 = biasRow (W2 m ρ c (Proc.devRef .tc main_arg7)) := by
    show StableHlo.after hostOps1 (W2 m ρ c) (Proc.devRef .tc main_v38) = _
    after_results
    rfl
  rw [e, W2_arg7 m ρ c]

theorem V3_arg6 (c : Dev nD) : V3 m ρ c main_arg6 = m ((c : Thread nD τ).loc main_arg6) := by
  show StableHlo.after hostOps1 (W2 m ρ c) (Proc.devRef .tc main_arg6) = _
  after_results
  exact W2_arg6 m ρ c

theorem V3_arg8 (c : Dev nD) : V3 m ρ c main_arg8 = m ((c : Thread nD τ).loc main_arg8) := by
  show StableHlo.after hostOps1 (W2 m ρ c) (Proc.devRef .tc main_arg8) = _
  after_results
  exact W2_arg8 m ρ c

/-! ## Region 2's entry -/

/-- The features region 2 reads: what the region before left in its result array. -/
abbrev feat2 (c : Dev nD) : FVec Ideal S100000x128 .f32 := W4 m ρ c (Proc.devRef .tc main_v39)

theorem V5_v39 (c : Dev nD) : V5 m ρ c main_v39 = feat2 m ρ c := by
  show StableHlo.after hostOps2 (W4 m ρ c) (Proc.devRef .tc main_v39) = _
  after_results

set_option maxHeartbeats 4000000 in
theorem V5_v51 (c : Dev nD) : V5 m ρ c main_v51 =
    meanOf (row0 (m ((c : Thread nD τ).loc main_arg1))) (row1 (m ((c : Thread nD τ).loc main_arg1))) (invCol (m ((c : Thread nD τ).loc main_arg1))) (feat2 m ρ c) := by
  show StableHlo.after hostOps2 (W4 m ρ c) (Proc.devRef .tc main_v51) = _
  after_results_simp
  rw [W4_v1 m ρ c, W4_v3 m ρ c, W4_v11 m ρ c]
  rfl

theorem V5_v52 (c : Dev nD) : V5 m ρ c main_v52 = biasRow (m ((c : Thread nD τ).loc main_arg10)) := by
  have e : V5 m ρ c main_v52 = biasRow (W4 m ρ c (Proc.devRef .tc main_arg10)) := by
    show StableHlo.after hostOps2 (W4 m ρ c) (Proc.devRef .tc main_v52) = _
    after_results
    rfl
  rw [e, W4_arg10 m ρ c]

theorem V5_arg9 (c : Dev nD) : V5 m ρ c main_arg9 = m ((c : Thread nD τ).loc main_arg9) := by
  show StableHlo.after hostOps2 (W4 m ρ c) (Proc.devRef .tc main_arg9) = _
  after_results
  exact W4_arg9 m ρ c

theorem V5_arg11 (c : Dev nD) : V5 m ρ c main_arg11 = m ((c : Thread nD τ).loc main_arg11) := by
  show StableHlo.after hostOps2 (W4 m ρ c) (Proc.devRef .tc main_arg11) = _
  after_results
  exact W4_arg11 m ρ c

/-! ## Region 3's entry -/

/-- The features the pooling reads: what region 2 left in its result array. -/
abbrev feat3 (c : Dev nD) : FVec Ideal S100000x128 .f32 := W6 m ρ c (Proc.devRef .tc main_v53)

theorem V7_v53 (c : Dev nD) : V7 m ρ c main_v53 = feat3 m ρ c := by
  show StableHlo.after hostOps3 (W6 m ρ c) (Proc.devRef .tc main_v53) = _
  after_results

theorem V7_v54 (c : Dev nD) : V7 m ρ c main_v54 = graphCol (m ((c : Thread nD τ).loc main_arg2)) := by
  have e : V7 m ρ c main_v54 = graphCol (W6 m ρ c (Proc.devRef .tc main_arg2)) := by
    show StableHlo.after hostOps3 (W6 m ρ c) (Proc.devRef .tc main_v54) = _
    after_results
    rfl
  rw [e, W6_arg2 m ρ c]

end Cert.Bridge.KHost

end
-- ==== Proof.SagePay.lean ====
/-
  THE DENSE LAYER'S ARITHMETIC AT ONE ENTRY OF A BLOCK.

  A block of 2000 rows of mean-aggregated features `a` and of node features `h`, two 128 × 128 weight matrices `wl`,
  `wr` and a bias row `bl` give, at row p and feature q of the block,
      max ((∑ₖ a[p, k] · wl[k, q] + bl[0, q]) + ∑ₖ h[p, k] · wr[k, q]) 0.
  Each of the two matrix products is a contraction over one axis of length 128 into a zero accumulator: read at an entry
  it is the sum over that axis of the products of the operands' entries (the changes of float format before it are the
  identity on the extended reals, and the zero accumulator adds nothing). The bias row is repeated along the rows, and the
  comparison with the zero scalar is the pointwise maximum. The three layers' programs differ by a reshaping of the
  second operand to its own shape, which changes nothing.
-/
import proofs.«429673_j39367670235545_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

open scoped BigOperators

noncomputable section

namespace Cert.Bridge.SagePay

open Idealize.ShloMosaic Idealize.ShloMosaic.ValueIdx Cert.KernelIdeal

/-! ## The contraction's operand indices, axis by axis

At output entry `i` and contraction index `q`, the left operand is read at row `i 0`, column `q`, and the right operand
at row `q`, column `i 1`. -/

theorem lhs_dot_0 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin S2000x128.rank) ∈ Cert.KernelIdeal.dot_S2000x128_S128x128_S2000x128_1_0_0_1_n_n.lhsBatch by decide), dif_pos (show (0 : Fin S2000x128.rank) ∈ Cert.KernelIdeal.dot_S2000x128_S128x128_S2000x128_1_0_0_1_n_n.lhsNonContracting by decide)]
  rfl
theorem lhs_dot_1 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem rhs_dot_0 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem rhs_dot_1 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin S128x128.rank) ∈ Cert.KernelIdeal.dot_S2000x128_S128x128_S2000x128_1_0_0_1_n_n.rhsBatch by decide), dif_pos (show (1 : Fin S128x128.rank) ∈ Cert.KernelIdeal.dot_S2000x128_S128x128_S2000x128_1_0_0_1_n_n.rhsNonContracting by decide)]
  rfl

/-- A [2000,128] × [128,128] product into the zero accumulator, at row `p` and column `q`: the sum over the shared axis. -/
theorem mm_apply {φ₁ φ₂ : FTy} (a : FVec Ideal S2000x128 φ₁) (b : FVec Ideal S128x128 φ₂) (p : Fin 2000) (q : Fin 128) :
    matmul (F := Ideal) Cert.KernelIdeal.dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 Cert.KernelIdeal.dot_S2000x128_S128x128_S2000x128_1_0_0_1_n_n 128 rfl rfl).symm]
  refine Finset.sum_congr rfl fun k _ => ?_
  have hk := ValueIdx.contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 p q) ((ValueIdx.contrEquiv1 Cert.KernelIdeal.dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : Cert.KernelIdeal.dot_S2000x128_S128x128_S2000x128_1_0_0_1_n_n.rhsIdx (ix2 p q) ((ValueIdx.contrEquiv1 Cert.KernelIdeal.dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row repeated along the 2000 rows, at row `p` and column `q`: the row's entry `q`. -/
theorem bias_apply (r : FVec Ideal S1x128 .f32) (h : S1x128.Broadcasts S2000x128) (p : Fin 2000) (q : Fin 128) :
    broadcastTo S2000x128 r h (ix2 p q) = r (ix2 0 q) :=
  broadcastTo_apply r h (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The first layer's arithmetic at row `p`, feature `q` of a block. -/
theorem pay0_apply (v0 v3 : Vec Ideal S2000x128 .f32) (v5 v7 : Vec Ideal S128x128 .f32) (v9 : Vec Ideal S1x128 .f32) (p : Fin 2000) (q : Fin 128) :
    Cert.KernelIdeal.Gen.k0_pay1 (F := Ideal) v0 v3 v5 v7 v9 (ix2 p q)
      = max ((∑ k : Fin 128, v0 (ix2 p k) * v5 (ix2 k q) + v9 (ix2 0 q)) + ∑ k : Fin 128, v3 (ix2 p k) * v7 (ix2 k q)) 0 := by
  unfold Cert.KernelIdeal.Gen.k0_pay1
  simp only [shapeCast_self]
  rw [maximumf_apply, addf_apply, addf_apply, mm_apply, mm_apply, bias_apply, broadcast_apply]
  simp only [truncf_apply]
  exact congrArg (max _) Ideal.ofBits_zero_f32

/-- The second layer's: the same arithmetic (its second operand is first reshaped to its own shape). -/
theorem pay1_apply (v0 v3 : Vec Ideal S2000x128 .f32) (v5 v7 : Vec Ideal S128x128 .f32) (v9 : Vec Ideal S1x128 .f32) (p : Fin 2000) (q : Fin 128) :
    Cert.KernelIdeal.Gen.k1_pay1 (F := Ideal) v0 v3 v5 v7 v9 (ix2 p q)
      = max ((∑ k : Fin 128, v0 (ix2 p k) * v5 (ix2 k q) + v9 (ix2 0 q)) + ∑ k : Fin 128, v3 (ix2 p k) * v7 (ix2 k q)) 0 := by
  unfold Cert.KernelIdeal.Gen.k1_pay1
  simp only [shapeCast_self]
  rw [maximumf_apply, addf_apply, addf_apply, mm_apply, mm_apply, bias_apply, broadcast_apply]
  simp only [truncf_apply]
  exact congrArg (max _) Ideal.ofBits_zero_f32

/-- The third layer's: the same again. -/
theorem pay2_apply (v0 v3 : Vec Ideal S2000x128 .f32) (v5 v7 : Vec Ideal S128x128 .f32) (v9 : Vec Ideal S1x128 .f32) (p : Fin 2000) (q : Fin 128) :
    Cert.KernelIdeal.Gen.k2_pay1 (F := Ideal) v0 v3 v5 v7 v9 (ix2 p q)
      = max ((∑ k : Fin 128, v0 (ix2 p k) * v5 (ix2 k q) + v9 (ix2 0 q)) + ∑ k : Fin 128, v3 (ix2 p k) * v7 (ix2 k q)) 0 := by
  unfold Cert.KernelIdeal.Gen.k2_pay1
  simp only [shapeCast_self]
  rw [maximumf_apply, addf_apply, addf_apply, mm_apply, mm_apply, bias_apply, broadcast_apply]
  simp only [truncf_apply]
  exact congrArg (max _) Ideal.ofBits_zero_f32

end Cert.Bridge.SagePay

end
-- ==== Proof.Spec.lean ====
/-
  WHAT THE TWO KERNELS COMPUTE, INDEX BY INDEX, AND THE TWO LAWS THAT JOIN THE PROGRAMS.

  A graph of 100000 nodes with 128 features per node. One layer's dense part takes the mean-aggregated neighbour
  features `mean`, the node features `h`, two 128 × 128 weight matrices `wl`, `wr` and a bias row `bl`, and leaves at
  node p, feature q
      max ((∑ₖ mean[p, k] · wl[k, q] + bl[0, q]) + ∑ₖ h[p, k] · wr[k, q]) 0
  (`sageAt`): each row depends on its own row of `mean` and of `h` only, so cutting the rows into blocks changes nothing.
  The pooling sums, for graph g and feature d, the features of the nodes whose graph number is g (`poolAt`): a node
  whose number is no graph's contributes to no sum.

  The two laws:
  * `div_eq_mul_one_div`: on the extended reals `a / b = a · (1 / b)` whenever `b ≠ 0` — at the infinities too, since
    both sides are `a · b⁻¹` —, and `max x 1` is never zero (`max_one_ne_zero`): a mean taken by dividing by
    `max (deg, 1)` is the product with the reciprocal computed once.
  * `sum_onehot`: a sum of `s n · x n` where `s n` is 1 when a condition holds and 0 otherwise is the sum of `x n` over
    the `n` where it holds, whatever the `x n` are (`0 · x = 0` and `1 · x = x` hold at the infinities too).
-/
import Idealize.ShloMosaic.PureOps.Ideal
import Idealize.ShloMosaic.Lib.ValueIdx

open scoped BigOperators

noncomputable section

namespace Cert.Bridge.Spec

open Idealize.ShloMosaic Idealize.ShloMosaic.ValueIdx

/-- Node features: 100000 nodes, 128 features. -/
abbrev SN : Shape := ⟨2, ![100000, 128]⟩
/-- A weight matrix. -/
abbrev SW : Shape := ⟨2, ![128, 128]⟩
/-- A bias row. -/
abbrev SB : Shape := ⟨2, ![1, 128]⟩
/-- One integer per node, as a column. -/
abbrev SI : Shape := ⟨2, ![100000, 1]⟩
/-- Pooled features: 512 graphs, 128 features. -/
abbrev SG : Shape := ⟨2, ![512, 128]⟩

/-- One layer's dense part at node `p`, feature `q`. -/
def sageAt (mean h : SN.Idx → EReal) (wl : SW.Idx → EReal) (bl : SB.Idx → EReal) (wr : SW.Idx → EReal)
    (p : Fin 100000) (q : Fin 128) : EReal :=
  max ((∑ k : Fin 128, mean (ix2 p k) * wl (ix2 k q) + bl (ix2 0 q)) + ∑ k : Fin 128, h (ix2 p k) * wr (ix2 k q)) 0

/-- One layer's dense part as an array. -/
def sage (mean h : SN.Idx → EReal) (wl : SW.Idx → EReal) (bl : SB.Idx → EReal) (wr : SW.Idx → EReal) : SN.Idx → EReal :=
  fun i => sageAt mean h wl bl wr (i 0) (i 1)

theorem sage_apply (mean h : SN.Idx → EReal) (wl : SW.Idx → EReal) (bl : SB.Idx → EReal) (wr : SW.Idx → EReal)
    (p : Fin 100000) (q : Fin 128) : sage mean h wl bl wr (ix2 p q) = sageAt mean h wl bl wr p q := rfl

/-- The sum-pooling at graph `g`, feature `d`: the features of the nodes whose graph number (a 32-bit word) is `g`. -/
def poolAt (h : SN.Idx → EReal) (b : SI.Idx → BitVec 32) (g : Fin 512) (d : Fin 128) : EReal :=
  ∑ n : Fin 100000, if b (ix2 n 0) = BitVec.ofNat 32 g.val then h (ix2 n d) else 0

/-- The sum-pooling as an array. -/
def pool (h : SN.Idx → EReal) (b : SI.Idx → BitVec 32) : SG.Idx → EReal :=
  fun i => poolAt h b (i 0) (i 1)

theorem pool_apply (h : SN.Idx → EReal) (b : SI.Idx → BitVec 32) (g : Fin 512) (d : Fin 128) :
    pool h b (ix2 g d) = poolAt h b g d := rfl

/-- Dividing by a nonzero extended real is multiplying by its reciprocal `1 / b`: both are `a · b⁻¹`. -/
theorem div_eq_mul_one_div (a b : EReal) (hb : b ≠ 0) : Ideal.div a b = a * Ideal.div 1 b := by
  unfold Ideal.div
  rw [if_neg hb, if_neg hb, one_mul]

/-- `max x 1` is at least 1, so it is not zero. -/
theorem max_one_ne_zero (x : EReal) : max x 1 ≠ 0 := by
  have h : (0 : EReal) < max x 1 := lt_of_lt_of_le zero_lt_one (le_max_right x 1)
  exact ne_of_gt h

/-- A sum of products with a 0/1 selector is the sum over the selected indices. -/
theorem sum_onehot {ι : Type} [Fintype ι] (P : ι → Prop) [DecidablePred P] (x : ι → EReal) :
    ∑ n : ι, (if P n then (1 : EReal) else 0) * x n = ∑ n : ι, if P n then x n else 0 := by
  refine Finset.sum_congr rfl fun n _ => ?_
  by_cases h : P n
  · rw [if_pos h, if_pos h, one_mul]
  · rw [if_neg h, if_neg h, zero_mul]

end Cert.Bridge.Spec

end
-- ==== Proof.SageArr0.lean ====
/-
  ONE DENSE LAYER'S RESULT ARRAY, FROM ITS BLOCKS.

  The layer's region runs one program at fifty grid points. Point t is handed rows [2000 t, 2000 t + 2000) of the
  mean-aggregated features and of the node features (two arrays of 100000 rows and 128 features), the whole of two
  128 × 128 weight matrices and of a bias row, and writes rows [2000 t, 2000 t + 2000) of the result.

  * Each block read is the array read at a shifted index: a block's coordinate is the block index times the block size plus
    the coordinate inside the block, and the block indices are (t, 0) for the row-blocked arrays and (0, 0) for the arrays
    handed whole. These are decided once over the fifty points.
  * The layer's value at a node depends on that node's own row of the two feature arrays only, so the arithmetic on the
    blocks of point t, at row p of the block, is the layer's value on the whole arrays at row 2000 t + p.
  * Row r of the result lies in the block of point r / 2000, and 2000 · 50 = 100000: the blocks cover the result, which
    therefore ends holding the layer's value everywhere.
-/
import proofs.«429673_j39367670235545_1_alg».proof.Proof.Gen.KernelIdeal.Frame
import proofs.«429673_j39367670235545_1_alg».proof.Proof.SagePay
import proofs.«429673_j39367670235545_1_alg».proof.Proof.Spec
import Idealize.ShloMosaic.Lib.Pipeline.Value
import Idealize.ShloMosaic.Lib.ValueIdx
import Idealize.ShloMosaic.Lib.Tactic

open scoped BigOperators

noncomputable section

namespace Cert.Bridge.SageArr0

open Idealize.ShloMosaic Idealize.ShloMosaic.TcCoe Idealize.ShloMosaic.ValueIdx Idealize.SL.Sem
open Idealize.ShloMosaic.Pipeline (Dat)
open Cert.KernelIdeal Cert.KernelIdeal.Gen Cert.Bridge.Spec

variable (V : (c : Dev nD) → (b : Ref sig .tc) → Buf (Elt Ideal) ((c : Thread nD τ).loc b))

/-! The arrays behind the region's six windows: the mean features, the node features, the first weights, the bias row, the
second weights, and the result. -/
example : Pipeline.arrRef spec0 0 = main_v23 := rfl
example : Pipeline.arrRef spec0 1 = main_arg0 := rfl
example : Pipeline.arrRef spec0 2 = main_arg3 := rfl
example : Pipeline.arrRef spec0 3 = main_v24 := rfl
example : Pipeline.arrRef spec0 4 = main_arg5 := rfl
example : Pipeline.arrRef spec0 5 = main_v25 := rfl

/-- The zero offsets of a whole-buffer access. -/
theorem hz : (![0, 0] : Fin 2 → Nat) = fun _ => 0 := funext fun a => by fin_cases a <;> rfl

/-- The block indices at every point: (t, 0) for the three row-blocked windows, (0, 0) for the three handed whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! The five input arrays as the region finds them, and point `t`'s five input blocks, each at its literal type. -/
abbrev meanArr (c : Dev nD) : SN.Idx → EReal := V c main_v23
abbrev hArr (c : Dev nD) : SN.Idx → EReal := V c main_arg0
abbrev wlArr (c : Dev nD) : SW.Idx → EReal := V c main_arg3
abbrev blArr (c : Dev nD) : SB.Idx → EReal := V c main_v24
abbrev wrArr (c : Dev nD) : SW.Idx → EReal := V c main_arg5

abbrev meanBlk (c : Dev nD) (t : Fin cfg0.N) : Vec Ideal S2000x128 .f32 := iblk0 V c 0 t
abbrev hBlk (c : Dev nD) (t : Fin cfg0.N) : Vec Ideal S2000x128 .f32 := iblk0 V c 1 t
abbrev wlBlk (c : Dev nD) (t : Fin cfg0.N) : Vec Ideal S128x128 .f32 := iblk0 V c 2 t
abbrev blBlk (c : Dev nD) (t : Fin cfg0.N) : Vec Ideal S1x128 .f32 := iblk0 V c 3 t
abbrev wrBlk (c : Dev nD) (t : Fin cfg0.N) : Vec Ideal S128x128 .f32 := iblk0 V c 4 t

/-- Point `t`'s first block is rows [2000 t, 2000 t + 2000) of the mean array. -/
theorem meanBlk_apply (c : Dev nD) (t : Fin cfg0.N) (x : S2000x128.Idx) (i : SN.Idx)
    (h0 : (i 0).val = 2000 * t.val + (x 0).val) (h1 : (i 1).val = (x 1).val) :
    meanBlk V c t x = meanArr V c i := by
  have e0 : win0_0.index t (0 : Fin 2) = t.val := (idx_facts t).1
  have e1 : win0_0.index t (1 : Fin 2) = 0 := (idx_facts t).2.1
  unfold meanBlk iblk0
  rw [View.read_apply]
  show V c main_v23 _ = V c main_v23 _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

/-- Its second block is the same rows of the node features. -/
theorem hBlk_apply (c : Dev nD) (t : Fin cfg0.N) (x : S2000x128.Idx) (i : SN.Idx)
    (h0 : (i 0).val = 2000 * t.val + (x 0).val) (h1 : (i 1).val = (x 1).val) :
    hBlk V c t x = hArr V c i := by
  have e0 : win0_1.index t (0 : Fin 2) = t.val := (idx_facts t).2.2.1
  have e1 : win0_1.index t (1 : Fin 2) = 0 := (idx_facts t).2.2.2.1
  unfold hBlk iblk0
  rw [View.read_apply]
  show V c main_arg0 _ = V c main_arg0 _
  congr 1
  funext a
  apply Fin.ext
  match a with
  | ⟨0, _⟩ => show win0_1.index t (0 : Fin 2) * 2000 + 1 * (x 0).val = (i 0).val; rw [e0, h0]; omega
  | ⟨1, _⟩ => show win0_1.index t (1 : Fin 2) * 128 + 1 * (x 1).val = (i 1).val; rw [e1, h1]; omega

/-- Every point is handed the whole first weight matrix. -/
theorem wlBlk_eq (c : Dev nD) (t : Fin cfg0.N) : wlBlk V c t = wlArr V c := by
  have e0 : win0_2.index t (0 : Fin 2) = 0 := (idx_facts t).2.2.2.2.1
  have e1 : win0_2.index t (1 : Fin 2) = 0 := (idx_facts t).2.2.2.2.2.1
  funext x
  unfold wlBlk iblk0
  rw [View.read_apply]
  show V c main_arg3 _ = V c main_arg3 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- Every point is handed the whole bias row. -/
theorem blBlk_eq (c : Dev nD) (t : Fin cfg0.N) : blBlk V c t = blArr V c := by
  have e0 : win0_3.index t (0 : Fin 2) = 0 := (idx_facts t).2.2.2.2.2.2.1
  have e1 : win0_3.index t (1 : Fin 2) = 0 := (idx_facts t).2.2.2.2.2.2.2.1
  funext x
  unfold blBlk iblk0
  rw [View.read_apply]
  show V c main_v24 _ = V c main_v24 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

/-- Every point is handed the whole second weight matrix. -/
theorem wrBlk_eq (c : Dev nD) (t : Fin cfg0.N) : wrBlk V c t = wrArr V c := by
  have e0 : win0_4.index t (0 : Fin 2) = 0 := (idx_facts t).2.2.2.2.2.2.2.2.1
  have e1 : win0_4.index t (1 : Fin 2) = 0 := (idx_facts t).2.2.2.2.2.2.2.2.2.1
  funext x
  unfold wrBlk iblk0
  rw [View.read_apply]
  show V c main_arg5 _ = V c main_arg5 _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- The layer's arithmetic on blocks that are rows [R, R + 2000) of two arrays, with the weights and the bias whole, is the
    layer's value at the corresponding row of the arrays: row `p` of the block is row `R + p`, and each row's value depends
    on its own row only. -/
theorem pay_eq_sage (a h : Vec Ideal S2000x128 .f32) (wl wr : Vec Ideal S128x128 .f32) (bl : Vec Ideal S1x128 .f32)
    (A H : SN.Idx → EReal) (WL WR : SW.Idx → EReal) (BL : SB.Idx → EReal) (R : Nat)
    (ha : ∀ (x : S2000x128.Idx) (i : SN.Idx), (i 0).val = R + (x 0).val → (i 1).val = (x 1).val → a x = A i)
    (hh : ∀ (x : S2000x128.Idx) (i : SN.Idx), (i 0).val = R + (x 0).val → (i 1).val = (x 1).val → h x = H i)
    (hwl : wl = WL) (hwr : wr = WR) (hbl : bl = BL)
    (x : S2000x128.Idx) (i : SN.Idx) (h0 : (i 0).val = R + (x 0).val) (h1 : (i 1).val = (x 1).val) :
    k0_pay1 (F := Ideal) a h wl wr bl x = sage A H WL BL WR i := by
  obtain ⟨p, q, rfl⟩ : ∃ (p : Fin 2000) (q : Fin 128), x = ix2 p q := ⟨x 0, x 1, eq_ix2 x⟩
  obtain ⟨r, s, rfl⟩ : ∃ (r : Fin 100000) (s : Fin 128), i = ix2 r s := ⟨i 0, i 1, eq_ix2 i⟩
  obtain rfl : s = q := Fin.ext h1
  subst hwl hwr hbl
  rw [Cert.Bridge.SagePay.pay0_apply, sage_apply]
  unfold sageAt
  have ea : ∀ k : Fin 128, a (ix2 p k) = A (ix2 r k) := fun k => ha (ix2 p k) (ix2 r k) h0 rfl
  have eh : ∀ k : Fin 128, h (ix2 p k) = H (ix2 r k) := fun k => hh (ix2 p k) (ix2 r k) h0 rfl
  simp only [ea, eh]

/-- What point `t` writes back is its block of the layer's value on the arrays: rows [2000 t, 2000 t + 2000). -/
theorem flushed_eq (c : Dev nD) (t : Fin cfg0.N) :
    (dat0 (F := Ideal) V c).flushed 5 t
      = ((cfg0.win 5).blk t).view.read (Elt Ideal) (sage (meanArr V c) (hArr V c) (wlArr V c) (blArr V c) (wrArr V c)) := by
  have e0 : win0_5.index t (0 : Fin 2) = t.val := (idx_facts t).2.2.2.2.2.2.2.2.2.2.1
  have e1 : win0_5.index t (1 : Fin 2) = 0 := (idx_facts t).2.2.2.2.2.2.2.2.2.2.2
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  rw [View.read_apply]
  have hj0 : (j 0).val < 2000 := (j 0).isLt
  have hj1 : (j 1).val < 128 := (j 1).isLt
  refine pay_eq_sage (meanBlk V c t) (hBlk V c t) (wlBlk V c t) (wrBlk V c t) (blBlk V c t)
    (meanArr V c) (hArr V c) (wlArr V c) (wrArr V c) (blArr V c) (2000 * t.val)
    (meanBlk_apply V c t) (hBlk_apply V c t) (wlBlk_eq V c t) (wrBlk_eq V c t) (blBlk_eq V c t)
    ((cfg0.win 5).xinj (grid0.coords t) j) (((cfg0.win 5).blk t).view.emb j) ?_ ?_
  · show win0_5.index t (0 : Fin 2) * 2000 + 1 * (j 0).val = 2000 * t.val + (j 0).val
    rw [e0]; omega
  · show win0_5.index t (1 : Fin 2) * 128 + 1 * (j 1).val = (j 1).val
    rw [e1]; omega

/-- An index of the result array is in point `t`'s block iff each coordinate is in the block's range on its axis. -/
theorem mem_blk (t : Fin cfg0.N) (i : SN.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- Row `r` of the result is written by point `r / 2000`: the fifty blocks of 2000 rows tile the 100000 rows. -/
theorem cover (i : SN.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  have e0 : win0_5.index t (0 : Fin 2) = (i 0).val / 2000 := (idx_facts t).2.2.2.2.2.2.2.2.2.2.1
  have e1 : win0_5.index t (1 : Fin 2) = 0 := (idx_facts t).2.2.2.2.2.2.2.2.2.2.2
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0]; omega
  | ⟨1, _⟩ => show win0_5.index t (1 : Fin 2) * 128 ≤ (i 1).val ∧ (i 1).val < win0_5.index t (1 : Fin 2) * 128 + 128; rw [e1]; omega

/-- THE LAYER'S RESULT ARRAY after its region: the layer's value on the arrays the region was entered with. -/
theorem arr0 (c : Dev nD) :
    (dat0 (F := Ideal) V c).arrAt 5 cfg0.N = sage (V c main_v23) (V c main_arg0) (V c main_arg3) (V c main_v24) (V c main_arg5) :=
  (dat0 (F := Ideal) V c).arrAt_eq_of_cover 5 (sage (meanArr V c) (hArr V c) (wlArr V c) (blArr V c) (wrArr V c))
    (fun t _ => flushed_eq V c t) cover

end Cert.Bridge.SageArr0

end
-- ==== Proof.SageArr1.lean ====
/-
  ONE DENSE LAYER'S RESULT ARRAY, FROM ITS BLOCKS.

  The layer's region runs one program at fifty grid points. Point t is handed rows [2000 t, 2000 t + 2000) of the
  mean-aggregated features and of the node features (two arrays of 100000 rows and 128 features), the whole of two
  128 × 128 weight matrices and of a bias row, and writes rows [2000 t, 2000 t + 2000) of the result.

  * Each block read is the array read at a shifted index: a block's coordinate is the block index times the block size plus
    the coordinate inside the block, and the block indices are (t, 0) for the row-blocked arrays and (0, 0) for the arrays
    handed whole. These are decided once over the fifty points.
  * The layer's value at a node depends on that node's own row of the two feature arrays only, so the arithmetic on the
    blocks of point t, at row p of the block, is the layer's value on the whole arrays at row 2000 t + p.
  * Row r of the result lies in the block of point r / 2000, and 2000 · 50 = 100000: the blocks cover the result, which
    therefore ends holding the layer's value everywhere.
-/
import proofs.«429673_j39367670235545_1_alg».proof.Proof.Gen.KernelIdeal.Frame
import proofs.«429673_j39367670235545_1_alg».proof.Proof.SagePay
import proofs.«429673_j39367670235545_1_alg».proof.Proof.Spec
import Idealize.ShloMosaic.Lib.Pipeline.Value
import Idealize.ShloMosaic.Lib.ValueIdx
import Idealize.ShloMosaic.Lib.Tactic

open scoped BigOperators

noncomputable section

namespace Cert.Bridge.SageArr1

open Idealize.ShloMosaic Idealize.ShloMosaic.TcCoe Idealize.ShloMosaic.ValueIdx Idealize.SL.Sem
open Idealize.ShloMosaic.Pipeline (Dat)
open Cert.KernelIdeal Cert.KernelIdeal.Gen Cert.Bridge.Spec

variable (V : (c : Dev nD) → (b : Ref sig .tc) → Buf (Elt Ideal) ((c : Thread nD τ).loc b))

/-! The arrays behind the region's six windows: the mean features, the node features, the first weights, the bias row, the
second weights, and the result. -/
example : Pipeline.arrRef spec1 0 = main_v37 := rfl
example : Pipeline.arrRef spec1 1 = main_v25 := rfl
example : Pipeline.arrRef spec1 2 = main_arg6 := rfl
example : Pipeline.arrRef spec1 3 = main_v38 := rfl
example : Pipeline.arrRef spec1 4 = main_arg8 := rfl
example : Pipeline.arrRef spec1 5 = main_v39 := rfl

/-- The zero offsets of a whole-buffer access. -/
theorem hz : (![0, 0] : Fin 2 → Nat) = fun _ => 0 := funext fun a => by fin_cases a <;> rfl

/-- The block indices at every point: (t, 0) for the three row-blocked windows, (0, 0) for the three handed whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! The five input arrays as the region finds them, and point `t`'s five input blocks, each at its literal type. -/
abbrev meanArr (c : Dev nD) : SN.Idx → EReal := V c main_v37
abbrev hArr (c : Dev nD) : SN.Idx → EReal := V c main_v25
abbrev wlArr (c : Dev nD) : SW.Idx → EReal := V c main_arg6
abbrev blArr (c : Dev nD) : SB.Idx → EReal := V c main_v38
abbrev wrArr (c : Dev nD) : SW.Idx → EReal := V c main_arg8

abbrev meanBlk (c : Dev nD) (t : Fin cfg1.N) : Vec Ideal S2000x128 .f32 := iblk1 V c 0 t
abbrev hBlk (c : Dev nD) (t : Fin cfg1.N) : Vec Ideal S2000x128 .f32 := iblk1 V c 1 t
abbrev wlBlk (c : Dev nD) (t : Fin cfg1.N) : Vec Ideal S128x128 .f32 := iblk1 V c 2 t
abbrev blBlk (c : Dev nD) (t : Fin cfg1.N) : Vec Ideal S1x128 .f32 := iblk1 V c 3 t
abbrev wrBlk (c : Dev nD) (t : Fin cfg1.N) : Vec Ideal S128x128 .f32 := iblk1 V c 4 t

/-- Point `t`'s first block is rows [2000 t, 2000 t + 2000) of the mean array. -/
theorem meanBlk_apply (c : Dev nD) (t : Fin cfg1.N) (x : S2000x128.Idx) (i : SN.Idx)
    (h0 : (i 0).val = 2000 * t.val + (x 0).val) (h1 : (i 1).val = (x 1).val) :
    meanBlk V c t x = meanArr V c i := by
  have e0 : win1_0.index t (0 : Fin 2) = t.val := (idx_facts t).1
  have e1 : win1_0.index t (1 : Fin 2) = 0 := (idx_facts t).2.1
  unfold meanBlk iblk1
  rw [View.read_apply]
  show V c main_v37 _ = V c main_v37 _
  congr 1
  funext a
  apply Fin.ext
  match a with
  | ⟨0, _⟩ => show win1_0.index t (0 : Fin 2) * 2000 + 1 * (x 0).val = (i 0).val; rw [e0, h0]; omega
  | ⟨1, _⟩ => show win1_0.index t (1 : Fin 2) * 128 + 1 * (x 1).val = (i 1).val; rw [e1, h1]; omega

/-- Its second block is the same rows of the node features. -/
theorem hBlk_apply (c : Dev nD) (t : Fin cfg1.N) (x : S2000x128.Idx) (i : SN.Idx)
    (h0 : (i 0).val = 2000 * t.val + (x 0).val) (h1 : (i 1).val = (x 1).val) :
    hBlk V c t x = hArr V c i := by
  have e0 : win1_1.index t (0 : Fin 2) = t.val := (idx_facts t).2.2.1
  have e1 : win1_1.index t (1 : Fin 2) = 0 := (idx_facts t).2.2.2.1
  unfold hBlk iblk1
  rw [View.read_apply]
  show V c main_v25 _ = V c main_v25 _
  congr 1
  funext a
  apply Fin.ext
  match a with
  | ⟨0, _⟩ => show win1_1.index t (0 : Fin 2) * 2000 + 1 * (x 0).val = (i 0).val; rw [e0, h0]; omega
  | ⟨1, _⟩ => show win1_1.index t (1 : Fin 2) * 128 + 1 * (x 1).val = (i 1).val; rw [e1, h1]; omega

/-- Every point is handed the whole first weight matrix. -/
theorem wlBlk_eq (c : Dev nD) (t : Fin cfg1.N) : wlBlk V c t = wlArr V c := by
  have e0 : win1_2.index t (0 : Fin 2) = 0 := (idx_facts t).2.2.2.2.1
  have e1 : win1_2.index t (1 : Fin 2) = 0 := (idx_facts t).2.2.2.2.2.1
  funext x
  unfold wlBlk iblk1
  rw [View.read_apply]
  show V c main_arg6 _ = V c main_arg6 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- Every point is handed the whole bias row. -/
theorem blBlk_eq (c : Dev nD) (t : Fin cfg1.N) : blBlk V c t = blArr V c := by
  have e0 : win1_3.index t (0 : Fin 2) = 0 := (idx_facts t).2.2.2.2.2.2.1
  have e1 : win1_3.index t (1 : Fin 2) = 0 := (idx_facts t).2.2.2.2.2.2.2.1
  funext x
  unfold blBlk iblk1
  rw [View.read_apply]
  show V c main_v38 _ = V c main_v38 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- Every point is handed the whole second weight matrix. -/
theorem wrBlk_eq (c : Dev nD) (t : Fin cfg1.N) : wrBlk V c t = wrArr V c := by
  have e0 : win1_4.index t (0 : Fin 2) = 0 := (idx_facts t).2.2.2.2.2.2.2.2.1
  have e1 : win1_4.index t (1 : Fin 2) = 0 := (idx_facts t).2.2.2.2.2.2.2.2.2.1
  funext x
  unfold wrBlk iblk1
  rw [View.read_apply]
  show V c main_arg8 _ = V c main_arg8 _
  congr 1
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- The layer's arithmetic on blocks that are rows [R, R + 2000) of two arrays, with the weights and the bias whole, is the
    layer's value at the corresponding row of the arrays: row `p` of the block is row `R + p`, and each row's value depends
    on its own row only. -/
theorem pay_eq_sage (a h : Vec Ideal S2000x128 .f32) (wl wr : Vec Ideal S128x128 .f32) (bl : Vec Ideal S1x128 .f32)
    (A H : SN.Idx → EReal) (WL WR : SW.Idx → EReal) (BL : SB.Idx → EReal) (R : Nat)
    (ha : ∀ (x : S2000x128.Idx) (i : SN.Idx), (i 0).val = R + (x 0).val → (i 1).val = (x 1).val → a x = A i)
    (hh : ∀ (x : S2000x128.Idx) (i : SN.Idx), (i 0).val = R + (x 0).val → (i 1).val = (x 1).val → h x = H i)
    (hwl : wl = WL) (hwr : wr = WR) (hbl : bl = BL)
    (x : S2000x128.Idx) (i : SN.Idx) (h0 : (i 0).val = R + (x 0).val) (h1 : (i 1).val = (x 1).val) :
    k1_pay1 (F := Ideal) a h wl wr bl x = sage A H WL BL WR i := by
  obtain ⟨p, q, rfl⟩ : ∃ (p : Fin 2000) (q : Fin 128), x = ix2 p q := ⟨x 0, x 1, eq_ix2 x⟩
  obtain ⟨r, s, rfl⟩ : ∃ (r : Fin 100000) (s : Fin 128), i = ix2 r s := ⟨i 0, i 1, eq_ix2 i⟩
  obtain rfl : s = q := Fin.ext h1
  subst hwl hwr hbl
  rw [Cert.Bridge.SagePay.pay1_apply, sage_apply]
  unfold sageAt
  have ea : ∀ k : Fin 128, a (ix2 p k) = A (ix2 r k) := fun k => ha (ix2 p k) (ix2 r k) h0 rfl
  have eh : ∀ k : Fin 128, h (ix2 p k) = H (ix2 r k) := fun k => hh (ix2 p k) (ix2 r k) h0 rfl
  simp only [ea, eh]

/-- What point `t` writes back is its block of the layer's value on the arrays: rows [2000 t, 2000 t + 2000). -/
theorem flushed_eq (c : Dev nD) (t : Fin cfg1.N) :
    (dat1 (F := Ideal) V c).flushed 5 t
      = ((cfg1.win 5).blk t).view.read (Elt Ideal) (sage (meanArr V c) (hArr V c) (wlArr V c) (blArr V c) (wrArr V c)) := by
  have e0 : win1_5.index t (0 : Fin 2) = t.val := (idx_facts t).2.2.2.2.2.2.2.2.2.2.1
  have e1 : win1_5.index t (1 : Fin 2) = 0 := (idx_facts t).2.2.2.2.2.2.2.2.2.2.2
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  rw [View.read_apply]
  have hj0 : (j 0).val < 2000 := (j 0).isLt
  have hj1 : (j 1).val < 128 := (j 1).isLt
  refine pay_eq_sage (meanBlk V c t) (hBlk V c t) (wlBlk V c t) (wrBlk V c t) (blBlk V c t)
    (meanArr V c) (hArr V c) (wlArr V c) (wrArr V c) (blArr V c) (2000 * t.val)
    (meanBlk_apply V c t) (hBlk_apply V c t) (wlBlk_eq V c t) (wrBlk_eq V c t) (blBlk_eq V c t)
    ((cfg1.win 5).xinj (grid1.coords t) j) (((cfg1.win 5).blk t).view.emb j) ?_ ?_
  · show win1_5.index t (0 : Fin 2) * 2000 + 1 * (j 0).val = 2000 * t.val + (j 0).val
    rw [e0]; omega
  · show win1_5.index t (1 : Fin 2) * 128 + 1 * (j 1).val = (j 1).val
    rw [e1]; omega

/-- An index of the result array is in point `t`'s block iff each coordinate is in the block's range on its axis. -/
theorem mem_blk (t : Fin cfg1.N) (i : SN.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- Row `r` of the result is written by point `r / 2000`: the fifty blocks of 2000 rows tile the 100000 rows. -/
theorem cover (i : SN.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  have e0 : win1_5.index t (0 : Fin 2) = (i 0).val / 2000 := (idx_facts t).2.2.2.2.2.2.2.2.2.2.1
  have e1 : win1_5.index t (1 : Fin 2) = 0 := (idx_facts t).2.2.2.2.2.2.2.2.2.2.2
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e0]; omega
  | ⟨1, _⟩ => show win1_5.index t (1 : Fin 2) * 128 ≤ (i 1).val ∧ (i 1).val < win1_5.index t (1 : Fin 2) * 128 + 128; rw [e1]; omega

/-- THE LAYER'S RESULT ARRAY after its region: the layer's value on the arrays the region was entered with. -/
theorem arr1 (c : Dev nD) :
    (dat1 (F := Ideal) V c).arrAt 5 cfg1.N = sage (V c main_v37) (V c main_v25) (V c main_arg6) (V c main_v38) (V c main_arg8) :=
  (dat1 (F := Ideal) V c).arrAt_eq_of_cover 5 (sage (meanArr V c) (hArr V c) (wlArr V c) (blArr V c) (wrArr V c))
    (fun t _ => flushed_eq V c t) cover

end Cert.Bridge.SageArr1

end
-- ==== Proof.SageArr2.lean ====
/-
  ONE DENSE LAYER'S RESULT ARRAY, FROM ITS BLOCKS.

  The layer's region runs one program at fifty grid points. Point t is handed rows [2000 t, 2000 t + 2000) of the
  mean-aggregated features and of the node features (two arrays of 100000 rows and 128 features), the whole of two
  128 × 128 weight matrices and of a bias row, and writes rows [2000 t, 2000 t + 2000) of the result.

  * Each block read is the array read at a shifted index: a block's coordinate is the block index times the block size plus
    the coordinate inside the block, and the block indices are (t, 0) for the row-blocked arrays and (0, 0) for the arrays
    handed whole. These are decided once over the fifty points.
  * The layer's value at a node depends on that node's own row of the two feature arrays only, so the arithmetic on the
    blocks of point t, at row p of the block, is the layer's value on the whole arrays at row 2000 t + p.
  * Row r of the result lies in the block of point r / 2000, and 2000 · 50 = 100000: the blocks cover the result, which
    therefore ends holding the layer's value everywhere.
-/
import proofs.«429673_j39367670235545_1_alg».proof.Proof.Gen.KernelIdeal.Frame
import proofs.«429673_j39367670235545_1_alg».proof.Proof.SagePay
import proofs.«429673_j39367670235545_1_alg».proof.Proof.Spec
import Idealize.ShloMosaic.Lib.Pipeline.Value
import Idealize.ShloMosaic.Lib.ValueIdx
import Idealize.ShloMosaic.Lib.Tactic

open scoped BigOperators

noncomputable section

namespace Cert.Bridge.SageArr2

open Idealize.ShloMosaic Idealize.ShloMosaic.TcCoe Idealize.ShloMosaic.ValueIdx Idealize.SL.Sem
open Idealize.ShloMosaic.Pipeline (Dat)
open Cert.KernelIdeal Cert.KernelIdeal.Gen Cert.Bridge.Spec

variable (V : (c : Dev nD) → (b : Ref sig .tc) → Buf (Elt Ideal) ((c : Thread nD τ).loc b))

/-! The arrays behind the region's six windows: the mean features, the node features, the first weights, the bias row, the
second weights, and the result. -/
example : Pipeline.arrRef spec2 0 = main_v51 := rfl
example : Pipeline.arrRef spec2 1 = main_v39 := rfl
example : Pipeline.arrRef spec2 2 = main_arg9 := rfl
example : Pipeline.arrRef spec2 3 = main_v52 := rfl
example : Pipeline.arrRef spec2 4 = main_arg11 := rfl
example : Pipeline.arrRef spec2 5 = main_v53 := rfl

/-- The zero offsets of a whole-buffer access. -/
theorem hz : (![0, 0] : Fin 2 → Nat) = fun _ => 0 := funext fun a => by fin_cases a <;> rfl

/-- The block indices at every point: (t, 0) for the three row-blocked windows, (0, 0) for the three handed whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! The five input arrays as the region finds them, and point `t`'s five input blocks, each at its literal type. -/
abbrev meanArr (c : Dev nD) : SN.Idx → EReal := V c main_v51
abbrev hArr (c : Dev nD) : SN.Idx → EReal := V c main_v39
abbrev wlArr (c : Dev nD) : SW.Idx → EReal := V c main_arg9
abbrev blArr (c : Dev nD) : SB.Idx → EReal := V c main_v52
abbrev wrArr (c : Dev nD) : SW.Idx → EReal := V c main_arg11

abbrev meanBlk (c : Dev nD) (t : Fin cfg2.N) : Vec Ideal S2000x128 .f32 := iblk2 V c 0 t
abbrev hBlk (c : Dev nD) (t : Fin cfg2.N) : Vec Ideal S2000x128 .f32 := iblk2 V c 1 t
abbrev wlBlk (c : Dev nD) (t : Fin cfg2.N) : Vec Ideal S128x128 .f32 := iblk2 V c 2 t
abbrev blBlk (c : Dev nD) (t : Fin cfg2.N) : Vec Ideal S1x128 .f32 := iblk2 V c 3 t
abbrev wrBlk (c : Dev nD) (t : Fin cfg2.N) : Vec Ideal S128x128 .f32 := iblk2 V c 4 t

/-- Point `t`'s first block is rows [2000 t, 2000 t + 2000) of the mean array. -/
theorem meanBlk_apply (c : Dev nD) (t : Fin cfg2.N) (x : S2000x128.Idx) (i : SN.Idx)
    (h0 : (i 0).val = 2000 * t.val + (x 0).val) (h1 : (i 1).val = (x 1).val) :
    meanBlk V c t x = meanArr V c i := by
  have e0 : win2_0.index t (0 : Fin 2) = t.val := (idx_facts t).1
  have e1 : win2_0.index t (1 : Fin 2) = 0 := (idx_facts t).2.1
  unfold meanBlk iblk2
  rw [View.read_apply]
  show V c main_v51 _ = V c main_v51 _
  congr 1
  funext a
  apply Fin.ext
  match a with
  | ⟨0, _⟩ => show win2_0.index t (0 : Fin 2) * 2000 + 1 * (x 0).val = (i 0).val; rw [e0, h0]; omega
  | ⟨1, _⟩ => show win2_0.index t (1 : Fin 2) * 128 + 1 * (x 1).val = (i 1).val; rw [e1, h1]; omega

/-- Its second block is the same rows of the node features. -/
theorem hBlk_apply (c : Dev nD) (t : Fin cfg2.N) (x : S2000x128.Idx) (i : SN.Idx)
    (h0 : (i 0).val = 2000 * t.val + (x 0).val) (h1 : (i 1).val = (x 1).val) :
    hBlk V c t x = hArr V c i := by
  have e0 : win2_1.index t (0 : Fin 2) = t.val := (idx_facts t).2.2.1
  have e1 : win2_1.index t (1 : Fin 2) = 0 := (idx_facts t).2.2.2.1
  unfold hBlk iblk2
  rw [View.read_apply]
  show V c main_v39 _ = V c main_v39 _
  congr 1
  funext a
  apply Fin.ext
  match a with
  | ⟨0, _⟩ => show win2_1.index t (0 : Fin 2) * 2000 + 1 * (x 0).val = (i 0).val; rw [e0, h0]; omega
  | ⟨1, _⟩ => show win2_1.index t (1 : Fin 2) * 128 + 1 * (x 1).val = (i 1).val; rw [e1, h1]; omega

/-- Every point is handed the whole first weight matrix. -/
theorem wlBlk_eq (c : Dev nD) (t : Fin cfg2.N) : wlBlk V c t = wlArr V c := by
  have e0 : win2_2.index t (0 : Fin 2) = 0 := (idx_facts t).2.2.2.2.1
  have e1 : win2_2.index t (1 : Fin 2) = 0 := (idx_facts t).2.2.2.2.2.1
  funext x
  unfold wlBlk iblk2
  rw [View.read_apply]
  show V c main_arg9 _ = V c main_arg9 _
  congr 1
  funext a
  apply Fin.ext
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- Every point is handed the whole bias row. -/
theorem blBlk_eq (c : Dev nD) (t : Fin cfg2.N) : blBlk V c t = blArr V c := by
  have e0 : win2_3.index t (0 : Fin 2) = 0 := (idx_facts t).2.2.2.2.2.2.1
  have e1 : win2_3.index t (1 : Fin 2) = 0 := (idx_facts t).2.2.2.2.2.2.2.1
  funext x
  unfold blBlk iblk2
  rw [View.read_apply]
  show V c main_v52 _ = V c main_v52 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- Every point is handed the whole second weight matrix. -/
theorem wrBlk_eq (c : Dev nD) (t : Fin cfg2.N) : wrBlk V c t = wrArr V c := by
  have e0 : win2_4.index t (0 : Fin 2) = 0 := (idx_facts t).2.2.2.2.2.2.2.2.1
  have e1 : win2_4.index t (1 : Fin 2) = 0 := (idx_facts t).2.2.2.2.2.2.2.2.2.1
  funext x
  unfold wrBlk iblk2
  rw [View.read_apply]
  show V c main_arg11 _ = V c main_arg11 _
  congr 1
  funext a
  apply Fin.ext
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- The layer's arithmetic on blocks that are rows [R, R + 2000) of two arrays, with the weights and the bias whole, is the
    layer's value at the corresponding row of the arrays: row `p` of the block is row `R + p`, and each row's value depends
    on its own row only. -/
theorem pay_eq_sage (a h : Vec Ideal S2000x128 .f32) (wl wr : Vec Ideal S128x128 .f32) (bl : Vec Ideal S1x128 .f32)
    (A H : SN.Idx → EReal) (WL WR : SW.Idx → EReal) (BL : SB.Idx → EReal) (R : Nat)
    (ha : ∀ (x : S2000x128.Idx) (i : SN.Idx), (i 0).val = R + (x 0).val → (i 1).val = (x 1).val → a x = A i)
    (hh : ∀ (x : S2000x128.Idx) (i : SN.Idx), (i 0).val = R + (x 0).val → (i 1).val = (x 1).val → h x = H i)
    (hwl : wl = WL) (hwr : wr = WR) (hbl : bl = BL)
    (x : S2000x128.Idx) (i : SN.Idx) (h0 : (i 0).val = R + (x 0).val) (h1 : (i 1).val = (x 1).val) :
    k2_pay1 (F := Ideal) a h wl wr bl x = sage A H WL BL WR i := by
  obtain ⟨p, q, rfl⟩ : ∃ (p : Fin 2000) (q : Fin 128), x = ix2 p q := ⟨x 0, x 1, eq_ix2 x⟩
  obtain ⟨r, s, rfl⟩ : ∃ (r : Fin 100000) (s : Fin 128), i = ix2 r s := ⟨i 0, i 1, eq_ix2 i⟩
  obtain rfl : s = q := Fin.ext h1
  subst hwl hwr hbl
  rw [Cert.Bridge.SagePay.pay2_apply, sage_apply]
  unfold sageAt
  have ea : ∀ k : Fin 128, a (ix2 p k) = A (ix2 r k) := fun k => ha (ix2 p k) (ix2 r k) h0 rfl
  have eh : ∀ k : Fin 128, h (ix2 p k) = H (ix2 r k) := fun k => hh (ix2 p k) (ix2 r k) h0 rfl
  simp only [ea, eh]

/-- What point `t` writes back is its block of the layer's value on the arrays: rows [2000 t, 2000 t + 2000). -/
theorem flushed_eq (c : Dev nD) (t : Fin cfg2.N) :
    (dat2 (F := Ideal) V c).flushed 5 t
      = ((cfg2.win 5).blk t).view.read (Elt Ideal) (sage (meanArr V c) (hArr V c) (wlArr V c) (blArr V c) (wrArr V c)) := by
  have e0 : win2_5.index t (0 : Fin 2) = t.val := (idx_facts t).2.2.2.2.2.2.2.2.2.2.1
  have e1 : win2_5.index t (1 : Fin 2) = 0 := (idx_facts t).2.2.2.2.2.2.2.2.2.2.2
  show (cfg2.win 5).cut (grid2.coords t) ((dat2 (F := Ideal) V c).after 5 t) = _
  rw [after2_5]
  unfold out2_5
  rw [View.canon_unit_zero hz]
  simp only [View.ld_unit_zero (S := S2000x128) hz, View.ld_unit_zero (S := S128x128) hz, View.ld_unit_zero (S := S1x128) hz]
  funext j
  rw [View.read_apply]
  have hj0 : (j 0).val < 2000 := (j 0).isLt
  have hj1 : (j 1).val < 128 := (j 1).isLt
  refine pay_eq_sage (meanBlk V c t) (hBlk V c t) (wlBlk V c t) (wrBlk V c t) (blBlk V c t)
    (meanArr V c) (hArr V c) (wlArr V c) (wrArr V c) (blArr V c) (2000 * t.val)
    (meanBlk_apply V c t) (hBlk_apply V c t) (wlBlk_eq V c t) (wrBlk_eq V c t) (blBlk_eq V c t)
    ((cfg2.win 5).xinj (grid2.coords t) j) (((cfg2.win 5).blk t).view.emb j) ?_ ?_
  · show win2_5.index t (0 : Fin 2) * 2000 + 1 * (j 0).val = 2000 * t.val + (j 0).val
    rw [e0]; omega
  · show win2_5.index t (1 : Fin 2) * 128 + 1 * (j 1).val = (j 1).val
    rw [e1]; omega

/-- An index of the result array is in point `t`'s block iff each coordinate is in the block's range on its axis. -/
theorem mem_blk (t : Fin cfg2.N) (i : SN.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v53).slice (win2_5.rect t)).set ↔ _
  rw [View.set_slice_whole, Rect.mem_set_unit]
  exact Iff.rfl

/-- Row `r` of the result is written by point `r / 2000`: the fifty blocks of 2000 rows tile the 100000 rows. -/
theorem cover (i : SN.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  have e0 : win2_5.index t (0 : Fin 2) = (i 0).val / 2000 := (idx_facts t).2.2.2.2.2.2.2.2.2.2.1
  have e1 : win2_5.index t (1 : Fin 2) = 0 := (idx_facts t).2.2.2.2.2.2.2.2.2.2.2
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; rw [e0]; omega
  | ⟨1, _⟩ => show win2_5.index t (1 : Fin 2) * 128 ≤ (i 1).val ∧ (i 1).val < win2_5.index t (1 : Fin 2) * 128 + 128; rw [e1]; omega

/-- THE LAYER'S RESULT ARRAY after its region: the layer's value on the arrays the region was entered with. -/
theorem arr2 (c : Dev nD) :
    (dat2 (F := Ideal) V c).arrAt 5 cfg2.N = sage (V c main_v51) (V c main_v39) (V c main_arg9) (V c main_v52) (V c main_arg11) :=
  (dat2 (F := Ideal) V c).arrAt_eq_of_cover 5 (sage (meanArr V c) (hArr V c) (wlArr V c) (blArr V c) (wrArr V c))
    (fun t _ => flushed_eq V c t) cover

end Cert.Bridge.SageArr2

end
-- ==== Proof.PoolPay.lean ====
/-
  THE POOLING BODY, READ AS VALUES.

  One grid point of the pooling holds a block `x` of 2000 node rows (128 features each), the column `b` of their
  2000 graph numbers, and the running [512,128] block `acc` of pooled features. The body builds the 2000 × 512
  selector `s[r, g]` — 1 when row `r`'s graph number is `g`, else 0 (an equality test against the column number,
  widened to a word and converted to a float) — and leaves `acc + sᵀ · x`: at graph `g`, feature `d`,
      acc[g, d] + ∑ᵣ s[r, g] · x[r, d].
  At the first point the block is first reset to zero, so what is left is that formula at `acc = 0`.

  The contraction runs over axis 0 of both operands (the rows); the two format changes around it are the identity on
  extended reals.
-/
import proofs.«429673_j39367670235545_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

open scoped BigOperators

noncomputable section

open Idealize.ShloMosaic Idealize.ShloMosaic.TcCoe Idealize.SL.Sem Idealize.ShloMosaic.ValueIdx

namespace Cert.Bridge.PoolPay

open Cert.KernelIdeal Cert.KernelIdeal.Gen

/-! ## What each case of the body leaves in the output block -/

section Cases
variable {F : FTy → Type} [FloatOps F]

theorem hz : (![0, 0] : Fin 2 → Nat) = fun _ => 0 := funext fun a => by fin_cases a <;> rfl

/-- Away from the first point the body's one store covers the block: it leaves the update of the block it found. -/
theorem out_B (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (hc : ¬cond3_0 i) (x0 : Vec F S2000x128 .f32) (x1 : Vec F S2000x1 .i32) (xo : Vec F S512x128 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz]
  simp only [View.readAt_eq_ld, h1.read_unread, h2.read_unread, h3.read_unread, View.ld_unit_zero (S := S2000x128) hz,
    View.ld_unit_zero (S := S2000x1) hz, View.ld_unit_zero (S := S512x128) hz]

/-- At the first point the body stores the zero block, reads it back and stores the update of it. -/
theorem out_A (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (hc : cond3_0 i) (x0 : Vec F S2000x128 .f32) (x1 : Vec F S2000x1 .i32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S512x128) hz, View.readCov_unit_zero (S := S512x128) _ hz]
  simp only [View.readAt_eq_ld, h1.read_unread, h2.read_unread, View.ld_unit_zero (S := S2000x128) hz,
    View.ld_unit_zero (S := S2000x1) hz]

end Cases

/-! ## The update at an index, over the extended reals -/

/-- The contraction's left index, on its row axis, is the contraction position. -/
theorem lhs_pool_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
/-- The left index, on its column axis, is the result's row (the graph). -/
theorem lhs_pool_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
/-- The right index, on its row axis, is the contraction position. -/
theorem rhs_pool_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
/-- The right index, on its column axis, is the result's column (the feature). -/
theorem rhs_pool_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The product into a zero block, at graph `g` and feature `d`: the sum over the 2000 rows of the left operand at
    (row, g) times the right at (row, d). -/
theorem matmul_pool_apply (l : FVec Ideal S2000x512 .bf16) (r : FVec Ideal S2000x128 .bf16) (g : Fin 512) (d : Fin 128) :
    matmul dot_S2000x512_S2000x128_S512x128_0_0_1_1_n_n none l r (constant (F := Ideal) S512x128 .f32 0x00000000#32) (ix2 g d)
      = ∑ k : Fin 2000, l (ix2 k g) * r (ix2 k d) := by
  refine (Ideal.matmul_constant_zero_apply dot_S2000x512_S2000x128_S512x128_0_0_1_1_n_n none l r (ix2 g d)).trans ?_
  rw [← Equiv.sum_comp (contrEquiv1 dot_S2000x512_S2000x128_S512x128_0_0_1_1_n_n 2000 rfl rfl).symm]
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g d) ((contrEquiv1 dot_S2000x512_S2000x128_S512x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x512_S2000x128_S512x128_0_0_1_1_n_n.rhsIdx (ix2 g d) ((contrEquiv1 dot_S2000x512_S2000x128_S512x128_0_0_1_1_n_n 2000 rfl rfl).symm k) = ix2 k d := funext fun a => Fin.ext (by
    match a with
    | ⟨0, _⟩ => exact (rhs_pool_0 _ _).trans hk
    | ⟨1, _⟩ => exact rhs_pool_1 _ _)
  rw [el, er]

/-- The equality test of two words, widened and converted: 1 when they are equal, 0 when not. -/
theorem onehot_word (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · have e : IntOp.cmpi .eq a b = 1#1 := by
      show BitVec.ofBool (a == b) = 1#1
      rw [beq_iff_eq.mpr h]; rfl
    rw [e, if_pos h, show ((1#1 : BitVec 1).setWidth 32).toInt = 1 by decide]
    simp
  · have e : IntOp.cmpi .eq a b = 0#1 := by
      show BitVec.ofBool (a == b) = 0#1
      rw [beq_eq_false_iff_ne.mpr h]; rfl
    rw [e, if_neg h, show ((0#1 : BitVec 1).setWidth 32).toInt = 0 by decide]
    simp

/-- The selector at row `r`, graph `g`: the row's graph number against the column number `g`. -/
theorem onehot_apply (b : Vec Ideal S2000x1 .i32) (r : Fin 2000) (g : Fin 512) :
    (sitofp .f32 (extui 32 (cmpi .eq (broadcastTo S2000x512 (shapeCast S2000x1 b shapeCasts_S2000x1_S2000x1) broadcasts_S2000x1_S2000x512)
        (iota .tc S2000x512 32 [1] iota_S2000x512_d1_w32)) natLt_1_32) : FVec Ideal S2000x512 .f32) (ix2 r g)
      = if b (ix2 r 0) = BitVec.ofNat 32 g.val then (1 : EReal) else 0 := by
  have e1 : broadcastTo S2000x512 (shapeCast S2000x1 b shapeCasts_S2000x1_S2000x1) broadcasts_S2000x1_S2000x512 (ix2 r g) = b (ix2 r 0) := by
    refine (broadcastTo_apply (shapeCast S2000x1 b shapeCasts_S2000x1_S2000x1) broadcasts_S2000x1_S2000x512 (ix2 r g) (ix2 r 0) (fun a => ?_)).trans ?_
    · match a with
      | ⟨0, _⟩ => show r.val = if (2000 : Nat) = 1 then 0 else r.val; rw [if_neg (by decide)]
      | ⟨1, _⟩ => show (0 : Nat) = if (1 : Nat) = 1 then 0 else g.val; rw [if_pos rfl]
    · exact congrFun (shapeCast_self b shapeCasts_S2000x1_S2000x1) (ix2 r 0)
  have e2 : iota .tc S2000x512 32 [1] iota_S2000x512_d1_w32 (ix2 r g) = BitVec.ofNat 32 g.val :=
    iota_single_apply .tc S2000x512 32 1 iota_S2000x512_d1_w32 (ix2 r g)
  show FloatOps.sitofp (F := Ideal) .f32 ((IntOp.cmpi .eq (broadcastTo S2000x512 (shapeCast S2000x1 b shapeCasts_S2000x1_S2000x1) broadcasts_S2000x1_S2000x512 (ix2 r g))
      (iota .tc S2000x512 32 [1] iota_S2000x512_d1_w32 (ix2 r g))).setWidth 32) = _
  rw [e1, e2]
  exact onehot_word _ _

/-- THE UPDATE AT AN INDEX: the block found plus, over the 2000 rows, the selector times the row's feature. -/
theorem pay2_apply (x : Vec Ideal S2000x128 .f32) (b : Vec Ideal S2000x1 .i32) (acc : Vec Ideal S512x128 .f32) (g : Fin 512) (d : Fin 128) :
    k3_pay2 (F := Ideal) x b acc (ix2 g d)
      = acc (ix2 g d) + ∑ r : Fin 2000, (if b (ix2 r 0) = BitVec.ofNat 32 g.val then (1 : EReal) else 0) * x (ix2 r d) := by
  unfold k3_pay2
  dsimp only
  refine (addf_apply _ _ (ix2 g d)).trans ?_
  refine congrArg₂ (· + ·) (congrFun (shapeCast_self acc shapeCasts_S512x128_S512x128) (ix2 g d)) ?_
  refine (matmul_pool_apply _ _ g d).trans (Finset.sum_congr rfl fun r _ => ?_)
  refine congrArg₂ (· * ·) ?_ (congrFun (shapeCast_self x shapeCasts_S2000x128_S2000x128) (ix2 r d))
  exact onehot_apply b r g

/-- The zero block at an index. -/
theorem pay1_apply (g : Fin 512) (d : Fin 128) : (k3_pay1 (F := Ideal)) (ix2 g d) = 0 := by
  unfold k3_pay1
  show Ideal.ofBits .f32 0x00000000#32 = 0
  exact Ideal.ofBits_zero_f32

end Cert.Bridge.PoolPay
end
-- ==== Proof.PoolArr.lean ====
/-
  THE POOLING REGION'S RESULT ARRAY.

  The pooling runs over 50 grid points. Point `s` sees node rows `2000 s … 2000 s + 1999` (their 128 features and
  their graph numbers) and adds to ONE carried [512,128] block, at graph `g` and feature `d`, the features `d` of those
  of its rows whose graph number is `g`; the first point starts from the zero block. So after point `n` the block holds
  the sum, over the points `s ≤ n`, of those contributions (induction on the point), and after the last point the sum
  over all 50 × 2000 rows. The block is written to the result array once, after the last point, and it is the whole
  array. Re-indexing the pair (point `s`, row `r`) as the node `2000 s + r` turns the double sum into the sum over the
  100000 nodes of the features of the nodes whose graph number is `g`; a product with a 0/1 selector is the selected
  value (`0 · x = 0`, `1 · x = x` on the extended reals), and the leading zero drops (`0 + x = x`).
-/
import proofs.«429673_j39367670235545_1_alg».proof.Proof.Gen.KernelIdeal.Frame
import proofs.«429673_j39367670235545_1_alg».proof.Proof.Spec
import proofs.«429673_j39367670235545_1_alg».proof.Proof.PoolPay
import Idealize.ShloMosaic.Lib.Pipeline.Value
import Idealize.ShloMosaic.Lib.ValueIdx
import Idealize.ShloMosaic.Lib.Tactic
import Mathlib.Algebra.BigOperators.Fin

open scoped BigOperators

noncomputable section

open Idealize.ShloMosaic Idealize.ShloMosaic.TcCoe Idealize.SL.Sem Idealize.ShloMosaic.ValueIdx
open Idealize.ShloMosaic.Pipeline (Dat)

namespace Cert.Bridge.PoolArr

open Cert.KernelIdeal Cert.KernelIdeal.Gen Cert.Bridge.PoolPay

/-! ## Fifty blocks of two thousand rows are the hundred thousand nodes -/

/-- A sum over (block, row in the block) is the sum over the nodes `2000 · block + row`. -/
theorem sum_blocks {M : Type} [AddCommMonoid M] (f : Fin 100000 → M) :
    ∑ s : Fin 50, ∑ r : Fin 2000, f ⟨2000 * s.val + r.val, by omega⟩ = ∑ n : Fin 100000, f n := by
  refine (Fintype.sum_prod_type' (fun (s : Fin 50) (r : Fin 2000) => f ⟨2000 * s.val + r.val, by omega⟩)).symm.trans ?_
  refine Fintype.sum_equiv (finProdFinEquiv.trans (finCongr (by norm_num : 50 * 2000 = 100000))) _ _ fun x => ?_
  refine congrArg f (Fin.ext ?_)
  show 2000 * x.1.val + x.2.val = x.2.val + 2000 * x.1.val
  omega

/-! ## The blocks a point reads -/

variable (V : (c : Dev nD) → (b : Ref sig .tc) → Buf (Elt Ideal) ((c : Thread nD τ).loc b))

/-- The rows' features at a point, -/
abbrev xblk (c : Dev nD) (t : Fin cfg3.N) : Vec Ideal S2000x128 .f32 := iblk3 V c 0 t
/-- the rows' graph numbers at a point, -/
abbrev bblk (c : Dev nD) (t : Fin cfg3.N) : Vec Ideal S2000x1 .i32 := iblk3 V c 1 t
/-- the whole feature array, -/
abbrev harr (c : Dev nD) : Vec Ideal S100000x128 .f32 := V c main_v53
/-- and the whole column of graph numbers. -/
abbrev barr (c : Dev nD) : Vec Ideal S100000x1 .i32 := V c main_v54

theorem N50 : cfg3.N = 50 := N_3

/-- The windows' block numbers at point `t`: the two inputs' blocks are block `t` of the rows, the output's block never
    moves. Decided over the grid. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Row `r` of the feature block at point `t` is node `2000 t + r`'s row. -/
theorem xblk_apply (c : Dev nD) (t : Fin cfg3.N) (r : Fin 2000) (d : Fin 128) (hn : 2000 * t.val + r.val < 100000) :
    xblk V c t (ix2 r d) = harr V c (ix2 ⟨2000 * t.val + r.val, hn⟩ d) := by
  obtain ⟨e0, e1, -, -, -, -⟩ := idx_facts t
  show ((cfg3.win 0).blk t).view.read (Elt Ideal) (V c (Pipeline.arrRef spec3 0)) (ix2 r d) = _
  rw [View.read_apply]
  show V c main_v53 _ = V c main_v53 _
  congr 1
  funext a; apply Fin.ext
  match a with
  | ⟨0, _⟩ => show win3_0.index t (0 : Fin 2) * 2000 + 1 * r.val = 2000 * t.val + r.val; rw [e0]; omega
  | ⟨1, _⟩ => show win3_0.index t (1 : Fin 2) * 128 + 1 * d.val = d.val; rw [e1]; omega

/-- Row `r` of the graph-number block at point `t` is node `2000 t + r`'s number. -/
theorem bblk_apply (c : Dev nD) (t : Fin cfg3.N) (r : Fin 2000) (hn : 2000 * t.val + r.val < 100000) :
    bblk V c t (ix2 r 0) = barr V c (ix2 ⟨2000 * t.val + r.val, hn⟩ 0) := by
  obtain ⟨-, -, e0, e1, -, -⟩ := idx_facts t
  show ((cfg3.win 1).blk t).view.read (Elt Ideal) (V c (Pipeline.arrRef spec3 1)) (ix2 r 0) = _
  rw [View.read_apply]
  show V c main_v54 _ = V c main_v54 _
  congr 1
  funext a; apply Fin.ext
  match a with
  | ⟨0, _⟩ => show win3_1.index t (0 : Fin 2) * 2000 + 1 * r.val = 2000 * t.val + r.val; rw [e0]; omega
  | ⟨1, _⟩ => show win3_1.index t (1 : Fin 2) * 1 + 1 * 0 = 0; rw [e1]

/-! ## The carried block after each point -/

/-- What point `s` adds at graph `g`, feature `d`: over its 2000 rows, the selector times the feature (nothing past the grid). -/
def addend (c : Dev nD) (g : Fin 512) (d : Fin 128) (s : ℕ) : EReal :=
  if h : s < cfg3.N then
    ∑ r : Fin 2000, (if bblk V c ⟨s, h⟩ (ix2 r 0) = BitVec.ofNat 32 g.val then (1 : EReal) else 0) * xblk V c ⟨s, h⟩ (ix2 r d)
  else 0

/-- After point `n` the carried block holds the contributions of the points up to `n`: by induction on the point. -/
theorem outsAt_apply (c : Dev nD) (g : Fin 512) (d : Fin 128) : ∀ (n : ℕ) (h : n < cfg3.N),
    (outsAt3 V c n h : Vec Ideal S512x128 .f32) (ix2 g d) = ∑ s ∈ Finset.range (n + 1), addend V c g d s
  | 0, h => by
    rw [outsAt3_A V c ⟨0, h⟩ (Nat.zero_mod 50)]
    refine (congrFun (out_A (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) ((hcond3_0 ⟨0, h⟩).mpr (Nat.zero_mod 50)) (xblk V c ⟨0, h⟩) (bblk V c ⟨0, h⟩)) (ix2 g d)).trans ?_
    rw [pay2_apply, pay1_apply, zero_add, Finset.sum_range_one]
    unfold addend
    rw [dif_pos h]
  | n + 1, h => by
    have hN : cfg3.N = 50 := N_3
    have hB : ¬(⟨n + 1, h⟩ : Fin cfg3.N).val % 50 = 0 := by dsimp only; omega
    rw [outsAt3_B V c ⟨n + 1, h⟩ hB]
    dsimp only
    refine (congrFun (out_B (F := Ideal) c (grid3.coords ⟨n + 1, h⟩) (ms3_0 ⟨n + 1, h⟩) (hs3_0 ⟨n + 1, h⟩) (ms3_1 ⟨n + 1, h⟩) (hs3_1 ⟨n + 1, h⟩)
      (ms3_2 ⟨n + 1, h⟩) (hs3_2 ⟨n + 1, h⟩) (fun hh => hB ((hcond3_0 ⟨n + 1, h⟩).mp hh)) (xblk V c ⟨n + 1, h⟩) (bblk V c ⟨n + 1, h⟩)
      (outsAt3 V c n (Nat.lt_of_succ_lt h))) (ix2 g d)).trans ?_
    rw [pay2_apply, outsAt_apply c g d n (Nat.lt_of_succ_lt h), Finset.sum_range_succ _ (n + 1)]
    refine congrArg₂ (· + ·) rfl ?_
    unfold addend
    rw [dif_pos h]

/-- After the last point the carried block is the pooling of the two arrays. -/
theorem last_eq (c : Dev nD) (h49 : 49 < cfg3.N) :
    (outsAt3 V c 49 h49 : Vec Ideal S512x128 .f32) = Cert.Bridge.Spec.pool (harr V c) (barr V c) := by
  funext j
  obtain ⟨g, d, rfl⟩ : ∃ (g : Fin 512) (d : Fin 128), j = ix2 g d := ⟨j 0, j 1, eq_ix2 j⟩
  rw [outsAt_apply V c g d 49 h49, Cert.Bridge.Spec.pool_apply]
  unfold Cert.Bridge.Spec.poolAt
  rw [← sum_blocks (fun n => if barr V c (ix2 n 0) = BitVec.ofNat 32 g.val then harr V c (ix2 n d) else 0),
    ← Fin.sum_univ_eq_sum_range (fun s => addend V c g d s) 50]
  refine Finset.sum_congr rfl fun s _ => ?_
  have hs : s.val < cfg3.N := lt_of_lt_of_eq s.isLt N50.symm
  unfold addend
  rw [dif_pos hs]
  refine (Cert.Bridge.Spec.sum_onehot (fun r : Fin 2000 => bblk V c ⟨s.val, hs⟩ (ix2 r 0) = BitVec.ofNat 32 g.val)
    (fun r => xblk V c ⟨s.val, hs⟩ (ix2 r d))).trans (Finset.sum_congr rfl fun r _ => ?_)
  have hn : 2000 * s.val + r.val < 100000 := by omega
  show (if bblk V c ⟨s.val, hs⟩ (ix2 r 0) = BitVec.ofNat 32 g.val then xblk V c ⟨s.val, hs⟩ (ix2 r d) else 0)
    = if barr V c (ix2 ⟨2000 * s.val + r.val, hn⟩ 0) = BitVec.ofNat 32 g.val then harr V c (ix2 ⟨2000 * s.val + r.val, hn⟩ d) else 0
  rw [xblk_apply V c ⟨s.val, hs⟩ r d hn, bblk_apply V c ⟨s.val, hs⟩ r hn]

/-! ## The result array -/

/-- The one write-back, after the last point, writes the pooling: the output's block at zero offsets is the array. -/
theorem flushed_eq (c : Dev nD) (t : Fin cfg3.N) (hf : (cfg3.win 2).flush t = true) :
    (dat3 (F := Ideal) V c).flushed 2 t = ((cfg3.win 2).blk t).view.read (Elt Ideal) (Cert.Bridge.Spec.pool (harr V c) (barr V c)) := by
  have hN : cfg3.N = 50 := N_3
  have h49 : t.val = 49 := by have := (flush3_2 t).mp hf; have := t.isLt; omega
  obtain ⟨-, -, -, -, e0, e1⟩ := idx_facts t
  obtain ⟨n, hn⟩ := t
  dsimp only at h49
  subst h49
  show (cfg3.win 2).cut (grid3.coords ⟨49, hn⟩) ((dat3 (F := Ideal) V c).after 2 ⟨49, hn⟩) = _
  rw [after3_2]
  dsimp only
  rw [last_eq V c hn]
  have hz' : (fun a => win3_2.index ⟨49, hn⟩ a * main_v55.ty.shape.size a) = fun _ => 0 := funext fun a => by
    match a with
    | ⟨0, _⟩ => show win3_2.index ⟨49, hn⟩ (0 : Fin 2) * 512 = 0; rw [e0]
    | ⟨1, _⟩ => show win3_2.index ⟨49, hn⟩ (1 : Fin 2) * 128 = 0; rw [e1]
  exact (Memref.read_access_unit_zero (Elt Ideal) main_v55 hz' (fun a => by rw [congrFun hz' a]; simp)
    (Cert.Bridge.Spec.pool (harr V c) (barr V c))).symm

/-- An index of the result array is in point `t`'s output block iff each coordinate is in the block's range. -/
theorem mem_blk (t : Fin cfg3.N) (i : S512x128.Idx) :
    i ∈ ((cfg3.win 2).blk t).view.set ↔ ∀ a : Fin 2, win3_2.index t a * S512x128.size a ≤ (i a).val ∧ (i a).val < win3_2.index t a * S512x128.size a + S512x128.size a := by
  show i ∈ ((View.whole main_v55).slice (win3_2.rect t)).set ↔ _
  rw [View.set_slice_whole, Rect.mem_set_unit]
  exact Iff.rfl

/-- The last point writes back, and its block is the whole array. -/
theorem cover (i : S512x128.Idx) : ∃ t : Fin cfg3.N, (cfg3.win 2).flush t = true ∧ i ∈ ((cfg3.win 2).blk t).view.set := by
  have h49 : 49 < cfg3.N := by rw [N50]; decide
  obtain ⟨-, -, -, -, e0, e1⟩ := idx_facts ⟨49, h49⟩
  refine ⟨⟨49, h49⟩, (flush3_2 ⟨49, h49⟩).mpr (Nat.mod_eq_of_lt (show 49 < 50 by decide)), ?_⟩
  rw [mem_blk]
  intro a
  have h0 : (i 0 : Nat) < 512 := (i 0).isLt
  have h1 : (i 1 : Nat) < 128 := (i 1).isLt
  match a with
  | ⟨0, _⟩ => show win3_2.index ⟨49, h49⟩ (0 : Fin 2) * 512 ≤ (i 0 : Nat) ∧ (i 0 : Nat) < win3_2.index ⟨49, h49⟩ (0 : Fin 2) * 512 + 512
              rw [e0]; omega
  | ⟨1, _⟩ => show win3_2.index ⟨49, h49⟩ (1 : Fin 2) * 128 ≤ (i 1 : Nat) ∧ (i 1 : Nat) < win3_2.index ⟨49, h49⟩ (1 : Fin 2) * 128 + 128
              rw [e1]; omega

/-- THE RESULT ARRAY of the pooling region is the pooling of the feature array by the graph numbers. -/
theorem arr3 (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat3 (F := Ideal) V c).arrAt 2 Cert.KernelIdeal.cfg3.N = Cert.Bridge.Spec.pool (V c Cert.KernelIdeal.main_v53) (V c Cert.KernelIdeal.main_v54) :=
  (dat3 (F := Ideal) V c).arrAt_eq_of_cover 2 (Cert.Bridge.Spec.pool (harr V c) (barr V c)) (flushed_eq V c) cover

end Cert.Bridge.PoolArr
end
-- ==== Proof.KValue.lean ====
/-
  THE KERNEL PROGRAM'S RESULT AS ONE FUNCTION OF ITS ARGUMENTS.

  Each dense region leaves, in its result array, one layer of the features it was handed: the dense part `Spec.sage` of
  the mean over the in-neighbours and of the features themselves (`layerK`). Region 1 is handed region 0's result,
  region 2 region 1's, and the pooling region sums region 2's result per graph (`Spec.pool`). So the program's result
  is the pooling of three layers of the input features.
-/
import proofs.«429673_j39367670235545_1_alg».proof.Proof.KRun
import proofs.«429673_j39367670235545_1_alg».proof.Proof.KHost
import proofs.«429673_j39367670235545_1_alg».proof.Proof.SageArr0
import proofs.«429673_j39367670235545_1_alg».proof.Proof.SageArr1
import proofs.«429673_j39367670235545_1_alg».proof.Proof.SageArr2
import proofs.«429673_j39367670235545_1_alg».proof.Proof.PoolArr
import proofs.«429673_j39367670235545_1_alg».proof.Proof.Spec

set_option maxRecDepth 16384

noncomputable section

namespace Cert.Bridge.KValue

open Cert.KernelIdeal Cert.KernelIdeal.Gen Cert.Bridge.KHost
open Idealize.ShloMosaic Idealize.ShloMosaic.TcCoe Idealize.SL.Sem

/-- One layer as the kernel program computes it: the dense part of the mean over the in-neighbours (the summed
    neighbour features times the reciprocal in-degree) and of the features. -/
def layerK (ei : IVec S2x600000 32) (h : FVec Ideal S100000x128 .f32) (wl : FVec Ideal S128x128 .f32)
    (bl : FVec Ideal S128 .f32) (wr : FVec Ideal S128x128 .f32) : FVec Ideal S100000x128 .f32 :=
  Cert.Bridge.Spec.sage (meanOf (row0 ei) (row1 ei) (invCol ei) h) h wl (biasRow bl) wr

variable (m : (ℓ : Loc nD τ sig) → Buf (Elt Ideal) ℓ) (ρ : Dev nD → PrngReg)

/-- Region 0 leaves the first layer of the input features. -/
theorem feat1_eq (c : Dev nD) : feat1 m ρ c = (layerK (m ((c : Thread nD τ).loc main_arg1)) (m ((c : Thread nD τ).loc main_arg0)) (m ((c : Thread nD τ).loc main_arg3)) (m ((c : Thread nD τ).loc main_arg4)) (m ((c : Thread nD τ).loc main_arg5))) := by
  have h := (W2_arr m ρ c 5).trans (Cert.Bridge.SageArr0.arr0 (V1 m ρ) c)
  rw [V1_v23 m ρ c, V1_arg0 m ρ c, V1_arg3 m ρ c, V1_v24 m ρ c, V1_arg5 m ρ c] at h
  exact h

/-- Region 1 leaves the second layer. -/
theorem feat2_eq (c : Dev nD) : feat2 m ρ c = (layerK (m ((c : Thread nD τ).loc main_arg1)) (layerK (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) := by
  have h := (W4_arr m ρ c 5).trans (Cert.Bridge.SageArr1.arr1 (V3 m ρ) c)
  rw [V3_v37 m ρ c, V3_v25 m ρ c, V3_arg6 m ρ c, V3_v38 m ρ c, V3_arg8 m ρ c, feat1_eq m ρ c] at h
  exact h

/-- Region 2 leaves the third layer. -/
theorem feat3_eq (c : Dev nD) : feat3 m ρ c = (layerK (m ((c : Thread nD τ).loc main_arg1)) (layerK (m ((c : Thread nD τ).loc main_arg1)) (layerK (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) := by
  have h := (W6_arr m ρ c 5).trans (Cert.Bridge.SageArr2.arr2 (V5 m ρ) c)
  rw [V5_v51 m ρ c, V5_v39 m ρ c, V5_arg9 m ρ c, V5_v52 m ρ c, V5_arg11 m ρ c, feat2_eq m ρ c] at h
  exact h

/-- The program's result as a function of its arguments: the third layer, pooled per graph. -/
def result (c : Dev nD) : Buf (Elt Ideal) ((c.tc : Thread nD τ).loc main_v55) :=
  Cert.Bridge.Spec.pool (layerK (m ((c : Thread nD τ).loc main_arg1)) (layerK (m ((c : Thread nD τ).loc main_arg1)) (layerK (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) (graphCol (m ((c : Thread nD τ).loc main_arg2)))

/-- The pooling region leaves that in the result array. -/
theorem result_eq (c : Dev nD) : W8 m ρ c (Proc.devRef .tc main_v55) = result m c := by
  have h := (W8_arr m ρ c 2).trans (Cert.Bridge.PoolArr.arr3 (V7 m ρ) c)
  rw [V7_v53 m ρ c, V7_v54 m ρ c, feat3_eq m ρ c] at h
  exact h

/-- Every weakly fair execution of the kernel program ends, nothing faulting, with the result array at `result` and
    the arguments unchanged. -/
theorem run : θ_run defs (onTc (τ := τ) (main (F := Ideal))) ⟨m, fun _ => 0, ρ⟩ (fun r => ∀ c : Dev nD,
      r.2.mem ((c.tc : Thread nD τ).loc main_v55) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (result_eq m ρ c), (h c).2⟩)
    (Cert.KernelIdeal.Run.run_result (F := Ideal) m ρ)

end Cert.Bridge.KValue

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.RefValue.lean ====
/-
  THE REFERENCE PROGRAM'S RESULT, NAMED PIECE BY PIECE.

  The reference computes three graph-convolution layers and a sum-pooling. One layer takes the node features `h`,
  gathers the rows of `h` at the edges' source nodes (a negative source number wrapped by adding the node count),
  scatter-adds them at the edges' destination nodes into a zero table (`aggR`), divides by the broadcast of
  `max (deg, 1)`, `deg` the scatter-add of ones at the destinations (`denR`), multiplies by a weight matrix, adds the
  bias row and `h` times a second weight matrix, and clamps at zero from below (`layerR`). The result is the
  scatter-add of the third layer's rows at the nodes' graph numbers into a zero table of 512 rows.

  * `res_eq`: the program's composed result term is these pieces nested (the same term, read off syntactically).
  * `layerR_eq`: one layer is, index by index, the specification's dense part `sage` of the mean `aggR / denR`:
    the two matrix products are sums over the contracted axis, the bias row is broadcast along the nodes, the clamp is
    the maximum with the zero word.
  * `pool_eq`: the final scatter-add into the zero table is the specification's pooling `pool`: an update row lands
    in the table row whose number is its (signed) graph number, and for a row number below 512 that is equality of
    32-bit words.
-/
import proofs.«429673_j39367670235545_1_alg».proof.Proof.Gen.ReferenceIdeal.Run
import proofs.«429673_j39367670235545_1_alg».proof.Proof.Spec
import proofs.«429673_j39367670235545_1_alg».proof.Proof.LibGatherScatter
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

open scoped BigOperators

noncomputable section

namespace Cert.Bridge.RefValue

open Cert.ReferenceIdeal Cert.ReferenceIdeal.Gen Idealize.ShloMosaic Idealize.ShloMosaic.TcCoe Idealize.SL.Sem Idealize.ShloMosaic.StableHlo
open Idealize.ShloMosaic.ValueIdx

/-! ## The pieces -/

/-- The edges' source nodes as a column: row 0 of the edge list, a negative number wrapped by adding 100000. -/
def srcCol (ei : IVec S2x600000 32) : IVec S600000x1 32 :=
  broadcastInDim S600000x1 ![0] bcast_S600000_S600000x1_0 (select (cmpi .slt (shapeCast _ (extractStridedSlice S1x600000 ![0, 0] ei slices_S2x600000_S1x600000_0_0) shapeCasts_S1x600000_S600000) (broadcastInDim S600000 ![] bcast_S_S600000 (constantI S_ 32 0#32))) (addi (shapeCast _ (extractStridedSlice S1x600000 ![0, 0] ei slices_S2x600000_S1x600000_0_0) shapeCasts_S1x600000_S600000) (broadcastInDim S600000 ![] bcast_S_S600000 (constantI S_ 32 100000#32))) (shapeCast _ (extractStridedSlice S1x600000 ![0, 0] ei slices_S2x600000_S1x600000_0_0) shapeCasts_S1x600000_S600000))

/-- The edges' destination nodes as a column: row 1 of the edge list. -/
def dstCol (ei : IVec S2x600000 32) : IVec S600000x1 32 :=
  broadcastInDim S600000x1 ![0] bcast_S600000_S600000x1_0 (shapeCast _ (extractStridedSlice S1x600000 ![1, 0] ei slices_S2x600000_S1x600000_1_0) shapeCasts_S1x600000_S600000)

/-- The neighbour sum: the rows of `h` at the source nodes, scatter-added at the destination nodes into a zero table. -/
def aggR (ei : IVec S2x600000 32) (h : FVec Ideal S100000x128 .f32) : FVec Ideal S100000x128 .f32 :=
  Host.scatterAdd scatter_S100000x128_S600000x1_S600000x128_1_0_0_1 (broadcastInDim S100000x128 ![] bcast_S_S100000x128 (constant S_ .f32 0x00000000#32)) (dstCol ei) (Host.gather gather_S100000x128_S600000x1_S600000x128_1_0_n_n_0_1_1128 h (srcCol ei))

/-- The divisor: `max (deg, 1)` broadcast along the features, `deg` the scatter-add of ones at the destination nodes. -/
def denR (ei : IVec S2x600000 32) : FVec Ideal S100000x128 .f32 :=
  broadcastInDim S100000x128 ![0, 1] bcast_S100000x1_S100000x128_0_1 (maximumf (Host.scatterAdd scatter_S100000x1_S600000x1_S600000x1_1_0_0_1 (broadcastInDim S100000x1 ![] bcast_S_S100000x1 (constant S_ .f32 0x00000000#32)) (dstCol ei) (broadcastInDim S600000x1 ![] bcast_S_S600000x1 (constant S_ .f32 0x3F800000#32))) (broadcastInDim S100000x1 ![] bcast_S_S100000x1 (constant S_ .f32 0x3F800000#32)))

/-- A bias vector as a row. -/
def blRow (bl : FVec Ideal S128 .f32) : FVec Ideal S1x128 .f32 :=
  broadcastInDim S1x128 ![1] bcast_S128_S1x128_1 bl

/-- One layer: `max ((mean · wl + bias) + h · wr, 0)`, the mean the neighbour sum over the divisor. -/
def layerR (ei : IVec S2x600000 32) (h : FVec Ideal S100000x128 .f32) (wl : FVec Ideal S128x128 .f32)
    (bl : FVec Ideal S128 .f32) (wr : FVec Ideal S128x128 .f32) : FVec Ideal S100000x128 .f32 :=
  maximumf (addf (addf (Host.dotGeneral dot_S100000x128_S128x128_S100000x128_1_0_0_1_n_n none (Host.divf (aggR ei h) (denR ei)) wl) (broadcastInDim S100000x128 ![0, 1] bcast_S1x128_S100000x128_0_1 (blRow bl))) (Host.dotGeneral dot_S100000x128_S128x128_S100000x128_1_0_0_1_n_n none h wr)) (broadcastInDim S100000x128 ![] bcast_S_S100000x128 (constant S_ .f32 0x00000000#32))

/-- The nodes' graph numbers as a column. -/
def batchCol (batch : IVec S100000 32) : IVec S100000x1 32 :=
  broadcastInDim S100000x1 ![0] bcast_S100000_S100000x1_0 batch

/-! ## The program's result is the pieces nested -/

/-- The reference's composed result: the scatter-add, at the graph numbers, of three nested layers into a zero table. -/
theorem res_eq (m : (ℓ : Loc nD τ sig) → Buf (Elt Ideal) ℓ) (c : Dev nD) :
    Cert.ReferenceIdeal.Value.res_main_v81 (F := Ideal) m c =
      Host.scatterAdd scatter_S512x128_S100000x1_S100000x128_1_0_0_1
        (broadcastInDim S512x128 ![] bcast_S_S512x128 (constant S_ .f32 0x00000000#32))
        (batchCol (m ((c.tc : Thread nD τ).loc main_arg2)))
        (layerR (m ((c.tc : Thread nD τ).loc main_arg1))
          (layerR (m ((c.tc : Thread nD τ).loc main_arg1))
            (layerR (m ((c.tc : Thread nD τ).loc main_arg1)) (m ((c.tc : Thread nD τ).loc main_arg0))
              (m ((c.tc : Thread nD τ).loc main_arg3)) (m ((c.tc : Thread nD τ).loc main_arg4)) (m ((c.tc : Thread nD τ).loc main_arg5)))
            (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10)) (m ((c.tc : Thread nD τ).loc main_arg11))) := by
  unfold Cert.ReferenceIdeal.Value.res_main_v81 layerR aggR denR blRow batchCol srcCol dstCol
  rfl

/-! ## One layer, index by index -/

/-- The product's left operand index keeps the output's row … -/
theorem dot_lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- … and runs along its columns with the contracted coordinate; -/
theorem dot_lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- the right operand index runs along its rows with the contracted coordinate … -/
theorem dot_rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- … and keeps the output's column. -/
theorem dot_rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- A [100000,128] × [128,128] product at node `p`, feature `q`: the sum over `k` of `l[p, k] · r[k, q]`. The
    contraction's index set is its one coordinate, and the sum is re-indexed through that bijection. -/
theorem dot_apply (l : FVec Ideal S100000x128 .f32) (r : FVec Ideal S128x128 .f32) (p : Fin 100000) (q : Fin 128) :
    Host.dotGeneral dot_S100000x128_S128x128_S100000x128_1_0_0_1_n_n none l r (ix2 p q) =
      ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

/-- A row broadcast along the nodes reads the row's element of the same feature. -/
theorem rowBcast_apply (y : FVec Ideal S1x128 .f32) (p : Fin 100000) (q : Fin 128) :
    broadcastInDim S100000x128 ![0, 1] bcast_S1x128_S100000x128_0_1 y (ix2 p q) = y (ix2 0 q) :=
  broadcastInDim_apply _ bcast_S1x128_S100000x128_0_1 y (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The broadcast zero word is the extended real 0 everywhere. -/
theorem zeroN_apply (i : S100000x128.Idx) :
    (broadcastInDim S100000x128 ![] bcast_S_S100000x128 (constant (F := Ideal) S_ .f32 0x00000000#32) : FVec Ideal S100000x128 .f32) i = 0 := by
  rw [broadcastInDim_apply _ bcast_S_S100000x128 _ i ix0 (fun a => a.elim0), constant_apply, Ideal.ofBits_zero_f32]

/-- One layer is the specification's dense part of the mean (the neighbour sum over the divisor), of `h`, the two
    weight matrices and the bias row: each element is the maximum with 0 of the two products' elements and the bias. -/
theorem layerR_eq (ei : IVec S2x600000 32) (h : FVec Ideal S100000x128 .f32) (wl : FVec Ideal S128x128 .f32)
    (bl : FVec Ideal S128 .f32) (wr : FVec Ideal S128x128 .f32) :
    layerR ei h wl bl wr = Cert.Bridge.Spec.sage (Host.divf (aggR ei h) (denR ei)) h wl (blRow bl) wr := by
  funext i
  obtain ⟨p, q, rfl⟩ : ∃ (p : Fin 100000) (q : Fin 128), i = ix2 p q := ⟨i 0, i 1, eq_ix2 i⟩
  rw [Cert.Bridge.Spec.sage_apply]
  unfold Cert.Bridge.Spec.sageAt layerR
  generalize Host.divf (aggR ei h) (denR ei) = mean
  rw [maximumf_apply, addf_apply, addf_apply, dot_apply, dot_apply, rowBcast_apply, zeroN_apply]

/-! ## The pooling -/

/-- A number below 512 written as a 32-bit word reads back, signed, as itself. -/
theorem toInt_ofNat_of_lt (g : Nat) (hg : g < 512) : (BitVec.ofNat 32 g).toInt = (g : Int) := by
  rw [BitVec.toInt_eq_toNat_cond, BitVec.toNat_ofNat]
  have hm : g % 2 ^ 32 = g := Nat.mod_eq_of_lt (by omega)
  rw [hm]
  split <;> omega

/-- A 32-bit word read signed is `g < 512` exactly when it is the word of `g`: the signed reading is injective. -/
theorem toInt_eq_iff (w : BitVec 32) (g : Nat) (hg : g < 512) : w.toInt = (g : Int) ↔ w = BitVec.ofNat 32 g := by
  constructor
  · intro hw
    exact BitVec.eq_of_toInt_eq (hw.trans (toInt_ofNat_of_lt g hg).symm)
  · rintro rfl
    exact toInt_ofNat_of_lt g hg

/-- The broadcast zero word is the extended real 0 everywhere in the pooled table. -/
theorem zeroG_apply (i : S512x128.Idx) :
    (broadcastInDim S512x128 ![] bcast_S_S512x128 (constant (F := Ideal) S_ .f32 0x00000000#32) : FVec Ideal S512x128 .f32) i = 0 := by
  rw [broadcastInDim_apply _ bcast_S_S512x128 _ i ix0 (fun a => a.elim0), constant_apply, Ideal.ofBits_zero_f32]

/-- The scatter-add of the node rows at the graph numbers into a zero table is the sum-pooling: row `g` collects the
    rows of the nodes whose graph number, read signed, is `g`, and for `g < 512` that is equality with the word of `g`. -/
theorem pool_eq (h : FVec Ideal S100000x128 .f32) (batch : IVec S100000 32) :
    Host.scatterAdd scatter_S512x128_S100000x1_S100000x128_1_0_0_1
        (broadcastInDim S512x128 ![] bcast_S_S512x128 (constant S_ .f32 0x00000000#32)) (batchCol batch) h =
      Cert.Bridge.Spec.pool h (batchCol batch) := by
  funext i
  obtain ⟨g, d, rfl⟩ : ∃ (g : Fin 512) (d : Fin 128), i = ix2 g d := ⟨i 0, i 1, eq_ix2 i⟩
  rw [Cert.Bridge.Spec.pool_apply]
  unfold Cert.Bridge.Spec.poolAt
  rw [Cert.Bridge.GS.scatterAdd_apply scatter_S512x128_S100000x1_S100000x128_1_0_0_1 rfl rfl rfl rfl _ (batchCol batch) h g d,
    zeroG_apply, zero_add, Finset.sum_filter]
  refine Finset.sum_congr rfl fun n _ => ?_
  exact if_congr (toInt_eq_iff _ g.val g.isLt) rfl rfl

end Cert.Bridge.RefValue

end
-- ==== Proof.MeanBridge.lean ====
/-
  THE TWO PROGRAMS' MEAN OVER THE IN-NEIGHBOURS, THE BIAS ROW AND THE GRAPH COLUMN ARE THE SAME ARRAYS.

  One program multiplies the neighbour sum by the column of reciprocals `1 / max (deg, 1)` broadcast along the
  features; the other divides the neighbour sum by `max (deg, 1)` broadcast along the features. The neighbour sums are
  the same gather and scatter-add at the same index columns, and `deg` is the same scatter-add of ones, so element by
  element the claim is `a · (1 / b) = a / b` with `b = max (deg, 1) ≠ 0` (the word 0x3F800000 is the real 1).
  A vector made a one-row array, or a one-column array, by a reshape is the same array as the one made by a
  broadcast along the new unit axis: both read the vector at the remaining coordinate.
-/
import proofs.«429673_j39367670235545_1_alg».proof.Proof.KHost
import proofs.«429673_j39367670235545_1_alg».proof.Proof.RefValue
import proofs.«429673_j39367670235545_1_alg».proof.Proof.Spec
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.Bridge.MeanBridge

open Idealize.ShloMosaic Idealize.ShloMosaic.ValueIdx
open Cert.Bridge.KHost Cert.Bridge.RefValue

/-! ## A reshape to a unit axis against a broadcast along it -/

/-- A bias vector as a one-row array: the reshape and the broadcast both read the vector at the column. -/
theorem biasRow_eq (bl : FVec Ideal Cert.KernelIdeal.S128 .f32) : biasRow bl = blRow bl := by
  funext i
  obtain ⟨a, q, rfl⟩ : ∃ (a : Fin 1) (q : Fin 128), i = ix2 a q := ⟨i 0, i 1, eq_ix2 i⟩
  unfold biasRow blRow
  rw [shapeCast_apply bl Cert.KernelIdeal.Gen.shapeCasts_S128_S1x128 (ix2 a q) (ix1 q)
      (by rw [Shape.rowMajor_val_one, Shape.rowMajor_val_two]; have ha := a.isLt; show q.val = a.val * 128 + q.val; omega),
    broadcastInDim_apply _ Cert.ReferenceIdeal.Gen.bcast_S128_S1x128_1 bl (ix2 a q) (ix1 q) (fun b => match b with
      | ⟨0, _⟩ => by show q.val = if (128 : Nat) = 1 then 0 else q.val; rw [if_neg (by decide)])]

/-- The graph numbers as a one-column array: the reshape and the broadcast both read the vector at the row. -/
theorem graphCol_eq (batch : IVec Cert.KernelIdeal.S100000 32) : graphCol batch = batchCol batch := by
  funext i
  obtain ⟨n, a, rfl⟩ : ∃ (n : Fin 100000) (a : Fin 1), i = ix2 n a := ⟨i 0, i 1, eq_ix2 i⟩
  unfold graphCol batchCol
  rw [shapeCast_apply batch Cert.KernelIdeal.Gen.shapeCasts_S100000_S100000x1 (ix2 n a) (ix1 n)
      (by rw [Shape.rowMajor_val_one, Shape.rowMajor_val_two]; have ha := a.isLt; show n.val = n.val * 1 + a.val; omega),
    broadcastInDim_apply _ Cert.ReferenceIdeal.Gen.bcast_S100000_S100000x1_0 batch (ix2 n a) (ix1 n) (fun b => match b with
      | ⟨0, _⟩ => by show n.val = if (100000 : Nat) = 1 then 0 else n.val; rw [if_neg (by decide)])]

/-! ## The mean -/

/-- The in-degree column: the scatter-add of ones at the edges' destination nodes into a zero column. -/
def degCol (ei : IVec Cert.ReferenceIdeal.S2x600000 32) : FVec Ideal Cert.ReferenceIdeal.S100000x1 .f32 :=
  Host.scatterAdd Cert.ReferenceIdeal.scatter_S100000x1_S600000x1_S600000x1_1_0_0_1
    (broadcastInDim Cert.ReferenceIdeal.S100000x1 ![] Cert.ReferenceIdeal.Gen.bcast_S_S100000x1 (constant Cert.ReferenceIdeal.S_ .f32 0x00000000#32))
    (dstCol ei)
    (broadcastInDim Cert.ReferenceIdeal.S600000x1 ![] Cert.ReferenceIdeal.Gen.bcast_S_S600000x1 (constant Cert.ReferenceIdeal.S_ .f32 0x3F800000#32))

/-- The column of ones. -/
def oneCol : FVec Ideal Cert.ReferenceIdeal.S100000x1 .f32 :=
  broadcastInDim Cert.ReferenceIdeal.S100000x1 ![] Cert.ReferenceIdeal.Gen.bcast_S_S100000x1 (constant Cert.ReferenceIdeal.S_ .f32 0x3F800000#32)

/-- The two programs' neighbour sums are the same gather and scatter-add at the same index columns. -/
theorem aggOf_eq (ei : IVec Cert.KernelIdeal.S2x600000 32) (h : FVec Ideal Cert.KernelIdeal.S100000x128 .f32) :
    aggOf (row0 ei) (row1 ei) h = aggR ei h := by
  unfold aggOf aggR srcColOf dstColOf row0 row1 srcCol dstCol
  rfl

/-- The reciprocal column is the column of ones over `max (deg, 1)`. -/
theorem invCol_eq (ei : IVec Cert.KernelIdeal.S2x600000 32) :
    invCol ei = Host.divf oneCol (maximumf (degCol ei) oneCol) := by
  unfold invCol oneCol degCol dstColOf row1 dstCol
  rfl

/-- The divisor is `max (deg, 1)` broadcast along the features. -/
theorem denR_eq (ei : IVec Cert.ReferenceIdeal.S2x600000 32) :
    denR ei = broadcastInDim Cert.ReferenceIdeal.S100000x128 ![0, 1] Cert.ReferenceIdeal.Gen.bcast_S100000x1_S100000x128_0_1
      (maximumf (degCol ei) oneCol) := by
  unfold denR oneCol degCol
  rfl

/-- The word 0x3F800000 is the real 1. -/
theorem ofBits_one_f32 : Ideal.ofBits .f32 0x3F800000#32 = 1 := by
  simp [Ideal.ofBits, Ideal.ieee, -EReal.coe_mul]; norm_num

/-- The column of ones reads 1 everywhere. -/
theorem oneCol_apply (i : Cert.ReferenceIdeal.S100000x1.Idx) : oneCol i = 1 := by
  unfold oneCol
  rw [broadcastInDim_apply _ Cert.ReferenceIdeal.Gen.bcast_S_S100000x1 _ i ix0 (fun a => a.elim0), constant_apply, ofBits_one_f32]

/-- A column broadcast along the features reads the column's entry of the same node. -/
theorem colBcast_apply (y : FVec Ideal Cert.ReferenceIdeal.S100000x1 .f32) (p : Fin 100000) (q : Fin 128) :
    broadcastInDim Cert.ReferenceIdeal.S100000x128 ![0, 1] Cert.ReferenceIdeal.Gen.bcast_S100000x1_S100000x128_0_1 y (ix2 p q) = y (ix2 p 0) :=
  broadcastInDim_apply _ Cert.ReferenceIdeal.Gen.bcast_S100000x1_S100000x128_0_1 y (ix2 p q) (ix2 p 0) (fun a => match a with
    | ⟨0, _⟩ => by show p.val = if (100000 : Nat) = 1 then 0 else p.val; rw [if_neg (by decide)]
    | ⟨1, _⟩ => by show 0 = if (1 : Nat) = 1 then 0 else q.val; rw [if_pos rfl])

/-- The host's division of two arrays reads, at an index, the extended reals' division of the elements. -/
theorem hostDivf_apply {s : Shape} (a b : FVec Ideal s .f32) (i : s.Idx) : Host.divf a b i = Ideal.div (a i) (b i) := rfl

/-- The neighbour sum times the broadcast reciprocal column is the neighbour sum over the broadcast `max (deg, 1)`:
    element by element `a · (1 / b) = a / b`, `b = max (deg, 1)` not zero. -/
theorem mean_eq (ei : IVec Cert.KernelIdeal.S2x600000 32) (h : FVec Ideal Cert.KernelIdeal.S100000x128 .f32) :
    meanOf (row0 ei) (row1 ei) (invCol ei) h = Host.divf (aggR ei h) (denR ei) := by
  unfold meanOf
  rw [aggOf_eq, invCol_eq, denR_eq]
  generalize aggR ei h = A
  generalize degCol ei = D
  funext i
  obtain ⟨p, q, rfl⟩ : ∃ (p : Fin 100000) (q : Fin 128), i = ix2 p q := ⟨i 0, i 1, eq_ix2 i⟩
  rw [mulf_apply, hostDivf_apply, colBcast_apply, colBcast_apply, hostDivf_apply, maximumf_apply, oneCol_apply]
  exact (Cert.Bridge.Spec.div_eq_mul_one_div _ _ (Cert.Bridge.Spec.max_one_ne_zero _)).symm

end Cert.Bridge.MeanBridge

end
-- ==== Proof.lean ====
/-
  A three-layer mean-aggregating graph network followed by a per-graph sum, on 100000 nodes, 600000 edges, 128
  features and 512 graphs: the tiled program equals the plain one over the extended reals.

  ONE LAYER. With `agg[n, ·]` the sum of the features of the sources of the edges whose target is `n` (a gather at the
  sources, a scatter-add at the targets) and `deg[n]` the number of those edges (the scatter-add of ones), both
  programs compute, per node `p` and feature `q`,
      max ((∑ₖ mean[p, k] · Wl[k, q] + bl[q]) + ∑ₖ h[p, k] · Wr[k, q]) 0.
  The plain program takes `mean = agg / max (deg, 1)`; the tiled one computes the reciprocal `1 / max (deg, 1)` once
  and takes `mean = agg · (1 / max (deg, 1))`. These agree at every extended real, the infinities included: a quotient
  by a nonzero `b` and the product with `1 / b` are both `a · b⁻¹`, and `max (deg, 1) ≥ 1` is never zero, whatever
  `deg` is. The gather and the two scatter-adds are the same operations of the same index columns in both programs,
  so they need no reading at an index: equal features in give equal sums out. The tiled program cuts the nodes into
  50 blocks of 2000 rows; a row of the result depends on its own rows of `mean` and `h` only, so the blocks together
  are the whole array. Its products run on narrower floats, which at the exact instance is no change.

  THE POOLING. The plain program scatter-adds each node's features at its graph number: graph `g` receives the sum of
  the features of the nodes numbered `g`, and a node whose number is no graph's is dropped. The tiled program
  carries one 512 × 128 block across the 50 blocks of nodes, zeroed at the first, and adds to it the product of a
  0/1 selector (is this node's number `g`?) with the block's features. `0 · x = 0` and `1 · x = x` at every extended
  real, so that is the same sum, grouped by block; a number that is no graph's matches no selector column.

  The word-level program runs and keeps its arguments (its generated frame), the idealization rewrote nothing, and
  the plain program's run is its generated run.
-/
import proofs.«429673_j39367670235545_1_alg».proof.Defs
import proofs.«429673_j39367670235545_1_alg».proof.Proof.Gen.Kernel
import proofs.«429673_j39367670235545_1_alg».proof.Proof.Gen.Kernel.Frame
import proofs.«429673_j39367670235545_1_alg».proof.Proof.Gen.KernelIdeal
import proofs.«429673_j39367670235545_1_alg».proof.Proof.Gen.KernelIdeal.Frame
import proofs.«429673_j39367670235545_1_alg».proof.Proof.Gen.ReferenceIdeal
import proofs.«429673_j39367670235545_1_alg».proof.Proof.Gen.ReferenceIdeal.Run
import proofs.«429673_j39367670235545_1_alg».proof.Proof.Gen.Pre_finite_inputs
import proofs.«429673_j39367670235545_1_alg».proof.Proof.KValue
import proofs.«429673_j39367670235545_1_alg».proof.Proof.RefValue
import proofs.«429673_j39367670235545_1_alg».proof.Proof.MeanBridge
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The plain program's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the pooled third layer: the plain program's
    layers take the mean by a quotient, the tiled program's by the product with the reciprocal, and these are one
    function; the bias row and the graph-number column are the same arrays laid out by two operations. -/
theorem algebraic : Cert.algebraic_KernelIdeal_ReferenceIdeal := by
  intro m ρ m' ρ' _ hagree
  refine ⟨fun c => Cert.Bridge.KValue.result m c, Cert.Bridge.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.Bridge.RefValue.res_eq, Cert.Bridge.RefValue.pool_eq]
  simp only [Cert.Bridge.RefValue.layerR_eq]
  rw [a0, a1, a2, a3, a4, a5, a6, a7, a8, a9, a10, a11]
  unfold Cert.Bridge.KValue.result Cert.Bridge.KValue.layerK
  simp only [Cert.Bridge.MeanBridge.mean_eq, Cert.Bridge.MeanBridge.biasRow_eq, Cert.Bridge.MeanBridge.graphCol_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
